-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S1024x512 : Shape := ⟨2, ![1024, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S8192x512 .f32) (main_arg1 : FVec F S1024x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  main_v8
-- ==== Kernel.lean ====
abbrev S8192x512 : Shape := ⟨2, ![8192, 512]⟩
abbrev S1024x512 : Shape := ⟨2, ![1024, 512]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1024x1 : Shape := ⟨2, ![1024, 1]⟩
abbrev S1x512 : Shape := ⟨2, ![1, 512]⟩
abbrev S512 : Shape := ⟨1, ![512]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 50
  | .vmem => 17
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S1024x512, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x1, .f32⟩
  | .hbm, ⟨17, _⟩ => ⟨S_, .f32⟩
  | .hbm, ⟨18, _⟩ => ⟨S1024x1, .f32⟩
  | .hbm, ⟨19, _⟩ => ⟨S1024x1, .f32⟩
  | .hbm, ⟨20, _⟩ => ⟨S1024x512, .f32⟩
  | .hbm, ⟨21, _⟩ => ⟨S1024x512, .f32⟩
  | .hbm, ⟨22, _⟩ => ⟨S1x512, .f32⟩
  | .hbm, ⟨23, _⟩ => ⟨S512, .f32⟩
  | .hbm, ⟨24, _⟩ => ⟨S8192x512, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S1x512, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1, .f32⟩
  | .hbm, ⟨42, _⟩ => ⟨S8192x512, .bf16⟩
  | .hbm, ⟨43, _⟩ => ⟨S8192x1, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v51 : BitVec 1 := Scalar.cmpi .eq arg1 c7_i32
  let v52 : BitVec 32 := Scalar.extui v51
  let c0_i32_25 : BitVec 32 := 0#32
  let v53 : BitVec 1 := Scalar.cmpi .ne v52 c0_i32_25
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  reducesTo_S1024x512_S1024_d1 : S1024x512.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  slices_S1024x512_S1x512_0_0 : S1024x512.Slices ![0, 0] S1x512
  shapeCasts_S1x512_S512 : S1x512.ShapeCasts S512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reducesTo_S8192x1_S_d0_1 : S8192x1.ReducesTo [0, 1] S_
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S8192x1.size a
  hwx0_7 : ∀ i : grid0.Coords, EltTy.bits .f32 = 32 ∨ (Rect.block (s := S8192x1) S1024x1.size (cc0_transform_7 i) (hinb0_7 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v32) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1024x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v31) S1024x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v33) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x512 : Shape := ⟨2, ![8192, 512]⟩
abbrev S1024x512 : Shape := ⟨2, ![1024, 512]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1024x1 : Shape := ⟨2, ![1024, 1]⟩
abbrev S1x512 : Shape := ⟨2, ![1, 512]⟩
abbrev S512 : Shape := ⟨1, ![512]⟩
abbrev S512x8192 : Shape := ⟨2, ![512, 8192]⟩
abbrev S8192x8192 : Shape := ⟨2, ![8192, 8192]⟩
abbrev S1x8192 : Shape := ⟨2, ![1, 8192]⟩

abbrev nBuf : Space → Nat
  | .hbm => 81
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S1024x512, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x1, .f32⟩
  | .hbm, ⟨17, _⟩ => ⟨S_, .f32⟩
  | .hbm, ⟨18, _⟩ => ⟨S1024x1, .f32⟩
  | .hbm, ⟨19, _⟩ => ⟨S1024x1, .f32⟩
  | .hbm, ⟨20, _⟩ => ⟨S1024x512, .f32⟩
  | .hbm, ⟨21, _⟩ => ⟨S1024x512, .f32⟩
  | .hbm, ⟨22, _⟩ => ⟨S1x512, .f32⟩
  | .hbm, ⟨23, _⟩ => ⟨S512, .f32⟩
  | .hbm, ⟨24, _⟩ => ⟨S8192x512, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S512x8192, .f32⟩
  | .hbm, ⟨30, _⟩ => ⟨S8192x8192, .f32⟩
  | .hbm, ⟨31, _⟩ => ⟨S8192x1, .f32⟩
  | .hbm, ⟨32, _⟩ => ⟨S1x8192, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S8192x1, .f32⟩
  | .hbm, ⟨41, _⟩ => ⟨S1x8192, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192x8192, .f32⟩
  | .hbm, ⟨54, _⟩ => ⟨S8192x8192, .f32⟩
  | .hbm, ⟨55, _⟩ => ⟨S8192x8192, .f32⟩
  | .hbm, ⟨56, _⟩ => ⟨S1x512, .f32⟩
  | .hbm, ⟨57, _⟩ => ⟨S8192x512, .f32⟩
  | .hbm, ⟨58, _⟩ => ⟨S8192x512, .f32⟩
  | .hbm, ⟨59, _⟩ => ⟨S_, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S_, .f32⟩
  | .hbm, ⟨67, _⟩ => ⟨S8192x8192, .f32⟩
  | .hbm, ⟨68, _⟩ => ⟨S8192x8192, .f32⟩
  | .hbm, ⟨69, _⟩ => ⟨S8192x1, .f32⟩
  | .hbm, ⟨70, _⟩ => ⟨S8192x8192, .f32⟩
  | .hbm, ⟨71, _⟩ => ⟨S8192x8192, .f32⟩
  | .hbm, ⟨72, _⟩ => ⟨S_, .f32⟩
  | .hbm, ⟨73, _⟩ => ⟨S8192x8192, .f32⟩
  | .hbm, ⟨74, _⟩ => ⟨S8192x8192, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_6 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_7 : Ref sig .tc := ⟨.hbm, 49, rfl⟩
abbrev main_v39 : Ref sig .tc := ⟨.hbm, 50, rfl⟩
abbrev main_v40 : Ref sig .tc := ⟨.hbm, 51, rfl⟩
abbrev main_cst_8 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_9 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_10 : Ref sig .tc := ⟨.hbm, 63, rfl⟩
abbrev main_v50 : Ref sig .tc := ⟨.hbm, 64, rfl⟩
abbrev main_v51 : Ref sig .tc := ⟨.hbm, 65, rfl⟩
abbrev main_cst_11 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_12 : Ref sig .tc := ⟨.hbm, 72, rfl⟩
abbrev main_v57 : Ref sig .tc := ⟨.hbm, 73, rfl⟩
abbrev main_v58 : Ref sig .tc := ⟨.hbm, 74, rfl⟩
abbrev main_cst_13 : Ref sig .tc := ⟨.hbm, 75, rfl⟩
abbrev main_v59 : Ref sig .tc := ⟨.hbm, 76, rfl⟩
abbrev main_cst_14 : Ref sig .tc := ⟨.hbm, 77, rfl⟩
abbrev main_v60 : Ref sig .tc := ⟨.hbm, 78, rfl⟩
abbrev main_cst_15 : Ref sig .tc := ⟨.hbm, 79, rfl⟩
abbrev main_v61 : Ref sig .tc := ⟨.hbm, 80, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  reducesTo_S1024x512_S1024_d1 : S1024x512.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  slices_S1024x512_S1x512_0_0 : S1024x512.Slices ![0, 0] S1x512
  shapeCasts_S1x512_S512 : S1x512.ShapeCasts S512
  transposes_S8192x512_S512x8192_1_0 : S8192x512.Transposes [1, 0] S512x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  reducesTo_S8192x8192_S_d0_1 : S8192x8192.ReducesTo [0, 1] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.K.Setup.lean ====
/-
  What the frame of this pairwise-distance row-sum kernel is stated over, at any float instance: the buffers'
  contents when the region is entered (after the host lines that normalise the rows and form the row
  statistics), the reduction of @main to the region continued by the closing host lines, each window's block
  at a grid point, the two branch conditions of the body (the accumulator is reset at the first column tile
  and written out at the last) in closed form over the 8 x 8 grid, where the output window is idle, and the
  staging and scratch memrefs the body is called with.
-/
import proofs.«165779_j71476845740753_1_alg».proof.Proof.Gen.Kernel.Launch
import proofs.«165779_j71476845740753_1_alg».proof.Proof.Gen.Kernel.Skeleton
import proofs.«165779_j71476845740753_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it: it reduces to the region
    continued by the later lines, at the contents the earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch TensorCore references only, -/
theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write no array of the pipeline (each writes only its own result buffer, which is no window's array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl
  all_goals intro w; fin_cases w <;> simp only [StableHlo.nullary_writes, StableHlo.unary_writes, StableHlo.binary_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions over the grid -/

/-- The accumulator is reset: the point is in the first column tile. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The accumulator is written to the output block: the point is in the last column tile. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

/-! ## The memrefs the body is called with -/

/-- One staging buffer of the output window, through which its contents are stated. -/
abbrev VO0_7 : View sig .tc .vmem S1024x1 .f32 := (Memref.whole cc0_stg7_0 : Memref sig .tc .vmem S1024x1 .f32).view
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)

/-- The accumulator: a whole scoped buffer of the kernel's own, carried between grid points. -/
abbrev scM0_0 : Memref sig .tc .vmem S1024x1 .f32 := Memref.whole cc0_scratch0
abbrev VS0_0 : View sig .tc .vmem S1024x1 .f32 := scM0_0.view

/-- The core's scoped buffers that are no staging buffer are the accumulator alone, owned at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.Kernel.Fr

end
-- ==== Proof.K.RunA.lean ====
/-
  The body at a point of the first column tile that is not the last one: the accumulator is reset to zero and the
  tile's row sums are added to it; nothing is stored into the output block. Run symbolically on whole staging
  memrefs, the inputs at given contents, the output block's buffer handed back untouched, the accumulator at
  anything before; what the stores leave in the accumulator is the list of pieces the run finds.
-/
import proofs.«165779_j71476845740753_1_alg».proof.Proof.K.Setup

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) :
    Σ' (L7 : List (View.Piece (Elt F) S1024x1 .f32)), { LS0 : List (View.Piece (Elt F) S1024x1 .f32) //
      ∀ (xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__pp_sum_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__pp_sum_kernel_eq_skeleton]; unfold cc0__pp_sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.Kernel.Fr

end
-- ==== Proof.K.RunB.lean ====
/-
  The body at a point of a middle column tile: the tile's row sums are added to the accumulator as the point
  before left it; nothing is stored into the output block.
-/
import proofs.«165779_j71476845740753_1_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) (xs0 : Vec F S1024x1 .f32) :
    Σ' (L7 : List (View.Piece (Elt F) S1024x1 .f32)), { LS0 : List (View.Piece (Elt F) S1024x1 .f32) //
      ∀ (xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__pp_sum_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__pp_sum_kernel_eq_skeleton]; unfold cc0__pp_sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.Kernel.Fr

end
-- ==== Proof.K.RunC.lean ====
/-
  The body at a point of the last column tile: the tile's row sums are added to the accumulator as the point
  before left it, and the accumulator is stored into the output block's buffer.
-/
import proofs.«165779_j71476845740753_1_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) (xs0 : Vec F S1024x1 .f32) :
    Σ' (L7 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__pp_sum_kernel i arg2 harg2 arg3 harg3 arg4 harg4 arg5 harg5 arg6 harg6 arg7 harg7 arg8 harg8 arg9 harg9 arg10 harg10) K } := by
  refine ⟨?_, ?_, fun E K => ?run⟩
  case run =>
    simp only [cc0__pp_sum_kernel_eq_skeleton]; unfold cc0__pp_sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.Kernel.Fr

end
-- ==== Proof.K.Shares.lean ====
/-
  How the full share of each buffer behind the windows' arrays is dealt among the windows. The normalised rows
  (in bf16) are read through windows 0 and 1, the squared row norms through windows 2 and 3, the row sums through
  windows 4 and 5: each of these three buffers is read twice, as the row tile and as the column tile of the
  pairwise product, so each of its two windows holds one half of the full share. The distances to the negative
  row (window 6) and the output (window 7) have a window each, at the full share.
-/
import proofs.«165779_j71476845740753_1_alg».proof.Proof.K.Setup

noncomputable section

namespace Cert.Kernel.Fr

open Cert.Kernel Cert.Kernel.Gen
open Idealize.ShloMosaic Idealize.SL Idealize.SL.RA

/-- The share each window holds of its array. -/
def qs : Fin cfg0.W → PosShare TreeShare
  | ⟨0, _⟩ => fullShare.left
  | ⟨1, _⟩ => fullShare.right
  | ⟨2, _⟩ => fullShare.left
  | ⟨3, _⟩ => fullShare.right
  | ⟨4, _⟩ => fullShare.left
  | ⟨5, _⟩ => fullShare.right
  | ⟨6, _⟩ => fullShare
  | ⟨7, _⟩ => fullShare

end Cert.Kernel.Fr

end
-- ==== Proof.K.Frame.lean ====
/-
  The frame of the row-sum kernel at any float instance: what each control case leaves in the output block's
  buffer and in the accumulator (the pieces its stores wrote, read back), what these hold after every grid point
  by recursion on the point, the pipeline's proof data — the arrays as the region finds them, the inputs' buffers
  at their blocks, the output's at the accumulator in the last column tile, the invariant the accumulator at what
  the point before left, the shares of the arrays read twice halved — and the body obligation at a generic point,
  by cases on the point's column tile: first (accumulator reset), middle, last (accumulator written out).
-/
import proofs.«165779_j71476845740753_1_alg».proof.Proof.K.RunC
import proofs.«165779_j71476845740753_1_alg».proof.Proof.K.Shares

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- What case A leaves in the output block's buffer: its pieces read back (none: a placeholder nothing consults, the window being idle and not written back at these points). -/
def out0_A_7 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) : Vec F S1024x1 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 x0 x1 x2 x3 x4 x5 x6).1)

/-- The pieces case A stores into the accumulator cover it. -/
theorem scover0_A_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) (y : S1024x1.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5 x6).2.1 S1024x1.size (by sl_kernel_rfl) y

/-- What case A leaves in the accumulator: its pieces read back. -/
def sout0_A_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5 x6).2.1)

/-- What case B leaves in the output block's buffer: its pieces read back (none: a placeholder nothing consults, the window being idle and not written back at these points). -/
def out0_B_7 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) (xs0 : Vec F S1024x1 .f32) : Vec F S1024x1 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 hc1 x0 x1 x2 x3 x4 x5 x6 xs0).1)

/-- The pieces case B stores into the accumulator cover it. -/
theorem scover0_B_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) (xs0 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 x6 xs0).2.1 S1024x1.size (by sl_kernel_rfl) y

/-- What case B leaves in the accumulator: its pieces read back. -/
def sout0_B_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) (xs0 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 x6 xs0).2.1)

/-- The pieces case C stores into the output block's buffer cover it. -/
theorem cover0_C_7 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) (xs0 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).1 S1024x1.size (by sl_kernel_rfl) y

/-- What case C leaves in the output block's buffer: its pieces read back. -/
def out0_C_7 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) (xs0 : Vec F S1024x1 .f32) : Vec F S1024x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 x5 x6 xs0).1)

/-- The pieces case C stores into the accumulator cover it. -/
theorem scover0_C_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) (xs0 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).2.1 S1024x1.size (by sl_kernel_rfl) y

/-- What case C leaves in the accumulator: its pieces read back. -/
def sout0_C_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) (xs0 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 x6 xs0).2.1)

/-! ## What the output block's buffer and the accumulator hold after each point -/

/-- After the body at position `n`: the case the column tile selects, run at the point's memrefs and input blocks, the
    accumulator taken (in the middle and last tiles) at what the point before left. -/
def outsAt0 (c : Dev nD) : (n : ℕ) → n < cfg0.N → Vec F S1024x1 .f32 × Vec F S1024x1 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 8 = 0 then
      if h1 : (n + 1) % 8 = 7 then
        False.elim (by omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      if h1 : (n + 1) % 8 = 7 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scoped buffers that are no staging buffer
    (the accumulator at anything); afterwards the accumulator at what the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
  Φ t := PhiS m c t.val (Nat.le_of_lt_succ t.isLt)
  q := qs
  owed _ := 0

theorem A_eq (c : Dev nD) (w : Fin cfg0.W) : (dats m 0 c).A w = V m c (Pipeline.arrRef spec0 w) := by
  dsimp only [dats]

theorem q_eq (c : Dev nD) : (dats m 0 c).q = qs := rfl

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases h0 : t.val % 8 = 0
  · by_cases h1 : t.val % 8 = 7
    · exfalso; omega
    · rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [outsAt0_A m c t h0 h1]
      unfold sout0_A_0; (try dsimp only)
      by_cases hz : t.val = 0
      ·
        rw [PhiS_castSucc m c t, PhiS_zero m c _ _ hz, scopedRest0_owns]
        iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0]
        · unfold owns; iexists _; isplitr
          swap; · iexact HS0
          ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t))
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      ·
        rw [PhiS_castSucc m c t, PhiS_pos m c _ _ hz]
        iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        iintro ⟨H0, H1, H2, H3, H4, H5, H6, H7, ⟨%es0, HS0⟩⟩
        isplitl [HS0]
        · unfold owns; iexists _; isplitr
          swap; · iexact HS0
          ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t))
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · have hz : t.val ≠ 0 := fun e => h0 (by rw [e])
    by_cases h1 : t.val % 8 = 7
    · rw [show (dats m 0 c).leavesExact 7 t = owns (c : Thread nD τ) (ms0_7 t) fullShare ((dats m 0 c).after 7 t) from by
        unfold Dat.leavesExact; rw [liveAt0_7_C t (fun h => h0 ((hcond0_0 t).mp h)) ((hcond0_1 t).mpr h1)], after0_7]
      rw [outsAt0_C m c t h0 h1]
      unfold out0_C_7 sout0_C_0; (try dsimp only)
      ·
        rw [PhiS_castSucc m c t, PhiS_pos m c _ _ hz]
        iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HS0]
        · unfold owns; iexists _; isplitr
          swap; · iexact HS0
          ipureintro; exact View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2)
    · rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B m c t h0 h1]
      unfold sout0_B_0; (try dsimp only)
      ·
        rw [PhiS_castSucc m c t, PhiS_pos m c _ _ hz]
        iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0]
        · unfold owns; iexists _; isplitr
          swap; · iexact HS0
          ipureintro; exact View.read_writes_of_cover _ _ _ _ _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scoped rest back: the accumulator's contents are forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest0_owns]
  iintro HS0
  iexists _; iexact HS0

end Cert.Kernel.Fr

end
-- ==== Proof.K.Split.lean ====
/-
  The buffers behind the windows' arrays, each whole at the full share, are the windowed arrays at the shares the
  windows hold. The eight windows read five buffers: the normalised rows (windows 0 and 1), the squared row norms
  (windows 2 and 3) and the row sums (windows 4 and 5) are each behind two windows, the distances to the negative
  row (window 6) and the output (window 7) behind one each. A full share is the composite of its left and its right
  half, so a buffer held whole at the full share is the same buffer held twice, once at each half; that is what
  the two windows on it hold. Both sides are written out as chains of points-tos over the five buffers, and the
  three shared buffers are split (or joined) along the share.
-/
import proofs.«165779_j71476845740753_1_alg».proof.Proof.K.Shares
import Idealize.ShloMosaic.Rules.PointsTo
import Idealize.ShloMosaic.Lib.Pipeline.Kit

set_option maxRecDepth 16384

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

/-! ## The two sides as chains -/

/-- The buffers behind the eight windows' arrays are five. -/
theorem arrImage0 : Finset.univ.image (Pipeline.arrRef spec0) = [main_v32, main_v20, main_v22, main_v31, main_v33].toFinset := by decide

/-- The distinct buffers behind the arrays, one by one. -/
theorem arrBufs_chain (c : Dev nD) (Vv : (b : Ref sig .tc) → Buf (Elt F) ((c.tc : Thread nD τ).loc b)) :
    (Pipeline.arrBufs spec0 c Vv : sProp 𝕄)
      = iprop(((c.tc : Thread nD τ).loc main_v32 ↦{fullShare} Vv main_v32) ∗ ((c.tc : Thread nD τ).loc main_v20 ↦{fullShare} Vv main_v20)
          ∗ ((c.tc : Thread nD τ).loc main_v22 ↦{fullShare} Vv main_v22) ∗ ((c.tc : Thread nD τ).loc main_v31 ↦{fullShare} Vv main_v31)
          ∗ ((c.tc : Thread nD τ).loc main_v33 ↦{fullShare} Vv main_v33)) := by
  unfold Pipeline.arrBufs
  exact bigSep_eq_bigSepL_of_eq [main_v32, main_v20, main_v22, main_v31, main_v33] arrImage0 (by decide) _

/-- Each window holds its array at the share dealt to it: the inputs by the proof data's choice, the output (window 7)
    at the full share, which is also what is dealt to it. -/
theorem share_eq (c : Dev nD) (dat : Dat τ (Elt F) Unit ℕ (UR sig nD τ) ℕ cfg0 c) (hq : dat.q = qs) (w : Fin cfg0.W) :
    dat.share w = qs w := by
  unfold Dat.share
  rw [hq]
  fin_cases w <;> rfl

/-- A window's array is a whole buffer: held through its view it is the buffer held at all its elements. -/
theorem win_pts (c : Dev nD) (Vv : (b : Ref sig .tc) → Buf (Elt F) ((c.tc : Thread nD τ).loc b))
    (Fw : (w : Fin cfg0.W) → Buf (Elt F) ((cfg0.win w).arr.view.loc (c.tc : Thread nD τ)))
    (hF : ∀ w, Fw w = Vv (Pipeline.arrRef spec0 w)) (q : PosShare TreeShare) (w : Fin cfg0.W) :
    ((cfg0.win w).arr.view.loc (c.tc : Thread nD τ) ↦[(cfg0.win w).arr.view.set]{q} Fw w : sProp 𝕄)
      = ((c.tc : Thread nD τ).loc (Pipeline.arrRef spec0 w) ↦{q} Vv (Pipeline.arrRef spec0 w)) := by
  have h : (cfg0.win w).arr.view.set = Finset.univ := (arr_whole0 w).set_eq_univ
  rw [h, hF w]

/-- The windowed arrays, one by one, each at its buffer and its share. -/
theorem arrays_chain (c : Dev nD) (dat : Dat τ (Elt F) Unit ℕ (UR sig nD τ) ℕ cfg0 c) (hq : dat.q = qs)
    (Vv : (b : Ref sig .tc) → Buf (Elt F) ((c.tc : Thread nD τ).loc b))
    (Fw : (w : Fin cfg0.W) → Buf (Elt F) ((cfg0.win w).arr.view.loc (c.tc : Thread nD τ)))
    (hF : ∀ w, Fw w = Vv (Pipeline.arrRef spec0 w)) :
    (dat.arrays Fw : sProp 𝕄)
      = iprop(((c.tc : Thread nD τ).loc main_v32 ↦{fullShare.left} Vv main_v32) ∗ ((c.tc : Thread nD τ).loc main_v32 ↦{fullShare.right} Vv main_v32)
          ∗ ((c.tc : Thread nD τ).loc main_v20 ↦{fullShare.left} Vv main_v20) ∗ ((c.tc : Thread nD τ).loc main_v20 ↦{fullShare.right} Vv main_v20)
          ∗ ((c.tc : Thread nD τ).loc main_v22 ↦{fullShare.left} Vv main_v22) ∗ ((c.tc : Thread nD τ).loc main_v22 ↦{fullShare.right} Vv main_v22)
          ∗ ((c.tc : Thread nD τ).loc main_v31 ↦{fullShare} Vv main_v31) ∗ ((c.tc : Thread nD τ).loc main_v33 ↦{fullShare} Vv main_v33)) := by
  unfold Dat.arrays
  rw [show (bigSep Finset.univ fun w : Fin cfg0.W =>
        ((cfg0.win w).arr.view.loc (c.tc : Thread nD τ) ↦[(cfg0.win w).arr.view.set]{dat.share w} Fw w : sProp 𝕄))
      = bigSep Finset.univ fun w : Fin 8 => ((c.tc : Thread nD τ).loc (Pipeline.arrRef spec0 w) ↦{qs w} Vv (Pipeline.arrRef spec0 w) : sProp 𝕄)
      from bigSep_congr fun w _ => by rw [share_eq c dat hq w, win_pts c Vv Fw hF (qs w) w]]
  rw [bigSep_W0]
  rfl

/-! ## Along the shares -/

/-- A buffer held whole at the full share is the buffer held at the two halves of the full share. -/
theorem whole_halves (c : Dev nD) (b : Ref sig .tc) (f : Buf (Elt F) ((c.tc : Thread nD τ).loc b)) :
    ((c.tc : Thread nD τ).loc b ↦{fullShare} f : sProp 𝕄)
      ⊣⊢ iprop(((c.tc : Thread nD τ).loc b ↦{fullShare.left} f) ∗ ((c.tc : Thread nD τ).loc b ↦{fullShare.right} f)) :=
  pointsTo_share (PosShare.mem_left_op_right fullShare)

/-- The distinct buffers behind the arrays, whole at the full share, are the windowed arrays at the windows' shares:
    the three buffers two windows read are split into halves, one half a window; the other two go over as they are. -/
theorem arrays_iff_arrBufs (c : Dev nD) (dat : Dat τ (Elt F) Unit ℕ (UR sig nD τ) ℕ cfg0 c) (hq : dat.q = qs)
    (Vv : (b : Ref sig .tc) → Buf (Elt F) ((c.tc : Thread nD τ).loc b))
    (Fw : (w : Fin cfg0.W) → Buf (Elt F) ((cfg0.win w).arr.view.loc (c.tc : Thread nD τ)))
    (hF : ∀ w, Fw w = Vv (Pipeline.arrRef spec0 w)) :
    (Pipeline.arrBufs spec0 c Vv : sProp 𝕄) ⊣⊢ dat.arrays Fw := by
  rw [arrBufs_chain, arrays_chain c dat hq Vv Fw hF]
  constructor
  · iintro ⟨H32, H20, H22, H31, H33⟩
    ihave H32 := (whole_halves c main_v32 (Vv main_v32)).1 $$ H32
    icases H32 with ⟨H32l, H32r⟩
    ihave H20 := (whole_halves c main_v20 (Vv main_v20)).1 $$ H20
    icases H20 with ⟨H20l, H20r⟩
    ihave H22 := (whole_halves c main_v22 (Vv main_v22)).1 $$ H22
    icases H22 with ⟨H22l, H22r⟩
    isplitl [H32l]; · iexact H32l
    isplitl [H32r]; · iexact H32r
    isplitl [H20l]; · iexact H20l
    isplitl [H20r]; · iexact H20r
    isplitl [H22l]; · iexact H22l
    isplitl [H22r]; · iexact H22r
    isplitl [H31]; · iexact H31
    iexact H33
  · iintro ⟨H32l, H32r, H20l, H20r, H22l, H22r, H31, H33⟩
    isplitl [H32l H32r]
    · iapply (whole_halves c main_v32 (Vv main_v32)).2
      isplitl [H32l]; · iexact H32l
      iexact H32r
    isplitl [H20l H20r]
    · iapply (whole_halves c main_v20 (Vv main_v20)).2
      isplitl [H20l]; · iexact H20l
      iexact H20r
    isplitl [H22l H22r]
    · iapply (whole_halves c main_v22 (Vv main_v22)).2
      isplitl [H22l]; · iexact H22l
      iexact H22r
    isplitl [H31]; · iexact H31
    iexact H33

end Cert.Kernel.Fr

end
-- ==== Proof.LibFrameAroundShared.lean ====
/-
  A frame run for a one-region pipeline whose windows may SHARE an array, whose region invariant is stated point
  by point (a buffer of the kernel's own carried between grid points), and whose @main goes on with host lines
  after the region.

  The pipeline holds each window's array at a share. When several input windows read one array, the full share of
  the buffer behind it is dealt among them at the region's entry (`hsplit`) and gathered again at its exit
  (`hjoin`): an input window never writes, so the windows on one array end at the same contents and their shares add
  up to the whole buffer again, at a valuation `V₁` that differs from the entry valuation `V₀` at most on the
  buffers behind the arrays (`hV₁`). The host lines after the region then run as the ones before it do, holding every
  unscoped buffer of the core; they write no array (`hkeep`), so the arrays can be dealt once more (`hresplit`) and
  handed back. The kernel has no semaphore of its own and does not use the generator register: its invariant starts
  from, and returns to, the scoped buffers that are no staging buffer.

  The conclusion: every weakly fair execution terminates, each window's array holding what the write-backs make of
  it, every other unscoped buffer what the lines after the region leave in it.
-/
import Idealize.ShloMosaic.Lib.Pipeline.FrameSuffix

noncomputable section

namespace Idealize.ShloMosaic

open Idealize.SL
open Idealize.SL.BI (sProp bigSep bigSep_map bigSep_congr)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

variable {Λ₀ : SL.Sem.Labels} {P : Type} [Fintype P] [DecidableEq P] [∀ e, Nonempty (Val e)]

local notation "𝕄" => MT nD τ sig Unit Val ℕ (UR sig nD τ) ℕ

set_option backward.isDefEq.respectTransparency.types false in
/-- The host lines after a region whose windows may share arrays: from the region's exit — the boundary, the
    pipeline's arrays at their final contents and shares, the bypassing buffers at the entry valuation — the shares are
    gathered (`hjoin`), the lines run holding every unscoped buffer, and the arrays are dealt again (`hresplit`). -/
theorem tail_seqs_shared (cfgs : P → Cfg sig Λ₀)
    (dats : (p : P) → (c : Dev nD) → Dat τ Val Unit ℕ (UR sig nD τ) ℕ (cfgs p) c) (p : P)
    (hun : ∀ w, (arrRef (cfgs p).spec w).isScoped = false)
    (defs₀ : Defs nD τ sig Val Λ₀) (𝒱₀ : Variants)
    (c : Dev nD) (V₀ V₁ : Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfgs p).spec w) ∉ op.writes)
    (hV₁ : ∀ b ∈ restRefs sig (cfgs p).spec, V₁ (Proc.devRef .tc b) = V₀ (Proc.devRef .tc b))
    (hjoin : (dats p c).arrays ((dats p c).arrAt · (cfgs p).N) ⊢ (arrBufs (cfgs p).spec c (fun b => V₁ (Proc.devRef .tc b)) : sProp 𝕄))
    (hresplit : (arrBufs (cfgs p).spec c (fun b => V₁ (Proc.devRef .tc b)) : sProp 𝕄) ⊢ (dats p c).arrays ((dats p c).arrAt · (cfgs p).N))
    (Q' : PUnit → sProp 𝕄) :
    iprop((iprop((dats p c).arrays ((dats p c).arrAt · (cfgs p).N)
              ∗ unscopedRest (cfgs p).spec c (fun b => StableHlo.after opss.flatten V₁ (Proc.devRef .tc b))) -∗ Q' ⟨⟩)
        ∗ boundary (c.tc : Thread nD τ) ∗ (dats p c).arrays ((dats p c).arrAt · (cfgs p).N)
        ∗ unscopedRest (cfgs p).spec c (fun b => V₀ (Proc.devRef .tc b)))
      ⊢ wp frame (wpE (Pipeline.defs (fun q => Cfg.toPCfg (Val := Val) (cfgs q)) defs₀) (Variants.lift 𝒱₀) (c.tc : Thread nD τ) none) Set.univ
          (chain (opss.map StableHlo.seq)) Q' := by
  classical
  -- the bypassing buffers at `V₀` are the bypassing buffers at `V₁`
  have hZ : (unscopedRest (cfgs p).spec c (fun b => V₀ (Proc.devRef .tc b)) : sProp 𝕄)
      = unscopedRest (cfgs p).spec c (fun b => V₁ (Proc.devRef .tc b)) := by
    unfold unscopedRest
    exact bigSep_congr fun b hb => by dsimp only; rw [hV₁ b hb]
  -- the lines write no array: the buffers behind the arrays hold after them what they held before
  have hA : (arrBufs (cfgs p).spec c (fun b => StableHlo.after opss.flatten V₁ (Proc.devRef .tc b)) : sProp 𝕄)
      = arrBufs (cfgs p).spec c (fun b => V₁ (Proc.devRef .tc b)) := by
    unfold arrBufs
    refine bigSep_congr fun b hb => ?_
    obtain ⟨w, -, rfl⟩ := Finset.mem_image.mp hb
    dsimp only
    rw [StableHlo.after_of_forall_not_mem _ _ fun op hop => ?_]
    obtain ⟨ops, hops, hop⟩ := List.mem_flatten.mp hop
    exact hkeep ops hops op hop w
  have h1 : (unscopedBufs c (fun b => V₁ (Proc.devRef .tc b)) : sProp 𝕄)
      = StableHlo.held (c.tc : Thread nD τ) (ucRefs τ sig) V₁ :=
    unscopedBufs_held (Ix := Unit) (Name := ℕ) (U := UR sig nD τ) (Lvl := ℕ) c V₁
  have h2 : (unscopedBufs c (fun b => StableHlo.after opss.flatten V₁ (Proc.devRef .tc b)) : sProp 𝕄)
      = StableHlo.held (c.tc : Thread nD τ) (ucRefs τ sig) (StableHlo.after opss.flatten V₁) :=
    unscopedBufs_held (Ix := Unit) (Name := ℕ) (U := UR sig nD τ) (Lvl := ℕ) c (StableHlo.after opss.flatten V₁)
  rw [← List.append_nil (opss.map StableHlo.seq), hZ]
  -- the region's exit, with the shares gathered, is the boundary and every unscoped buffer of the core at `V₁`
  refine (show iprop((iprop((dats p c).arrays ((dats p c).arrAt · (cfgs p).N)
              ∗ unscopedRest (cfgs p).spec c (fun b => StableHlo.after opss.flatten V₁ (Proc.devRef .tc b))) -∗ Q' ⟨⟩)
        ∗ boundary (c.tc : Thread nD τ) ∗ (dats p c).arrays ((dats p c).arrAt · (cfgs p).N)
        ∗ unscopedRest (cfgs p).spec c (fun b => V₁ (Proc.devRef .tc b)))
      ⊢ iprop((iprop((dats p c).arrays ((dats p c).arrAt · (cfgs p).N)
              ∗ unscopedRest (cfgs p).spec c (fun b => StableHlo.after opss.flatten V₁ (Proc.devRef .tc b))) -∗ Q' ⟨⟩)
        ∗ boundary (c.tc : Thread nD τ) ∗ (StableHlo.held (c.tc : Thread nD τ) (ucRefs τ sig) V₁ : sProp 𝕄)) from ?_).trans ?_
  · rw [← h1, unscopedBufs_split₀ cfgs p hun c (fun b => V₁ (Proc.devRef .tc b))]
    iintro ⟨Hk, Hb, Harr, Hrest⟩
    isplitl [Hk]; · iexact Hk
    isplitl [Hb]; · iexact Hb
    isplitl [Harr]
    · iapply hjoin; iexact Harr
    · iexact Hrest
  · iintro ⟨Hk, Hb⟩
    iapply (wp_seqs_then (fun q => Cfg.toPCfg (Val := Val) (cfgs q)) defs₀ 𝒱₀ c (ucRefs τ sig) [] opss
      (fun ops ho op h => sub_ucRefs op (hsub ops ho op h)) hfresh V₁) $$ Hb
    iintro Hb
    rw [chain_nil, wp_pure, ← h2, unscopedBufs_split₀ cfgs p hun c (fun b => StableHlo.after opss.flatten V₁ (Proc.devRef .tc b)), hA]
    imodintro
    icases Hb with ⟨-, Hbufs, Hrest⟩
    iapply Hk
    isplitl [Hbufs]
    · iapply hresplit; iexact Hbufs
    · iexact Hrest

/-- The frame run, with an invariant stated point by point, of a pipeline (no prefetched table, no semaphore of the
    kernel's own) whose windows may share arrays, for an @main that goes on after the region with the host lines
    `opss`: the layout facts but for the arrays' distinctness, the body obligation, @main around the region (`hmain`)
    with the contents `V₀` at the region's entry, the arrays dealt from the buffers behind them at entry (`hsplit`),
    gathered at exit at `V₁` (`hjoin`, `hV₁`) and dealt again (`hresplit`), the lines writing no array (`hkeep`), and
    the invariant entered from the scoped rest and returned to it. -/
theorem θ_run_frame_around_track_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ V₁ : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfgs p).spec c (fun b => V₀ c (Proc.devRef .tc b)) : sProp 𝕄) ⊢ (dats p c).arrays ((dats p c).arrAt · 0))
    (hV₁ : ∀ c, ∀ b ∈ restRefs sig (cfgs p).spec, V₁ c (Proc.devRef .tc b) = V₀ c (Proc.devRef .tc b))
    (hjoin : ∀ c, (dats p c).arrays ((dats p c).arrAt · (cfgs p).N) ⊢ (arrBufs (cfgs p).spec c (fun b => V₁ c (Proc.devRef .tc b)) : sProp 𝕄))
    (hresplit : ∀ c, (arrBufs (cfgs p).spec c (fun b => V₁ c (Proc.devRef .tc b)) : sProp 𝕄) ⊢ (dats p c).arrays ((dats p c).arrAt · (cfgs p).N))
    (hin : ∀ c, (scopedRest (Ix := Unit) (Name := ℕ) (U := UR sig nD τ) (Lvl := ℕ) (Val := Val) (cfgs p).spec c : sProp 𝕄) ⊢ (dats p c).Φ 0)
    (hout : ∀ c, (dats p c).Φ (Fin.last (cfgs p).N) ⊢ (scopedRest (Ix := Unit) (Name := ℕ) (U := UR sig nD τ) (Lvl := ℕ) (Val := Val) (cfgs p).spec c : sProp 𝕄)) :
    θ_run (Pipeline.defs (fun q => Cfg.toPCfg (Val := Val) (cfgs q)) defs₀) (onTc main) (s₀ m g)
      (fun r => ∀ c : Dev nD,
        (∀ w, r.2.mem (((cfgs p).spec w).arr.view.loc (c.tc : Thread nD τ)) = (dats p c).arrAt w (cfgs p).N)
        ∧ ∀ b ∈ restRefs sig (cfgs p).spec,
            r.2.mem ((c.tc : Thread nD τ).loc b) = StableHlo.after opss.flatten (V₁ c) (Proc.devRef .tc b)) := by
  classical
  exact θ_run_region_noSem_pf_tail (fun p => (cfgs p).toPCfg) (fun p => (cfgs p).toPCfg_adm) dats () hinj p hw (PreFacts.none _) emb₁ defs₀ 𝒱₀
    m g main (fun _ => chain (opss.map StableHlo.seq)) hbody hne harr hstage howed
    (u₀ := initOf (cells cfgs hinj) (launchToks cfgs hinj)) (hu₀ := .rfl)
    (V := fun c b => V₀ c (Proc.devRef .tc b)) (hmain := hmain) (hsplit := hsplit) (hpf := fun _ k => k.elim0)
    (X := fun _ => iprop(emp)) (Y := fun _ => iprop(emp))
    (Z := fun c => unscopedRest (Ix := Unit) (Name := ℕ) (U := UR sig nD τ) (Lvl := ℕ) (cfgs p).spec c (fun b => V₀ c (Proc.devRef .tc b)))
    (Z' := fun c => unscopedRest (Ix := Unit) (Name := ℕ) (U := UR sig nD τ) (Lvl := ℕ) (cfgs p).spec c
      (fun b => StableHlo.after opss.flatten (V₁ c) (Proc.devRef .tc b)))
    (hX := fun c => by
      rw [unscopedRestP_none]
      iintro H
      isplitr; · iempintro
      iexact H)
    (hin := fun c => (show _ ⊢ (scopedRest (Ix := Unit) (Name := ℕ) (U := UR sig nD τ) (Lvl := ℕ) (Val := Val) (cfgs p).spec c : sProp 𝕄) from by
        iintro ⟨-, -, HR⟩; iexact HR).trans (hin c))
    (hout := fun c => (hout c).trans (by
      iintro H
      isplitr; · iempintro
      iexact H))
    (htail := fun c Q' => tail_seqs_shared cfgs dats p hw.arr_unscoped defs₀ 𝒱₀ c (V₀ c) (V₁ c) opss hsub hfresh hkeep (hV₁ c) (hjoin c) (hresplit c) Q')
    (QY := fun c s => ∀ b ∈ restRefs sig (cfgs p).spec, s.mem ((c.tc : Thread nD τ).loc b) = StableHlo.after opss.flatten (V₁ c) (Proc.devRef .tc b))
    (hY := fun c s' => by
      iintro ⟨-, HU, HSI⟩
      unfold unscopedRest
      imodintro
      iapply (pointsTo_read_all (restRefs sig (cfgs p).spec) (fun b => (c.tc : Thread nD τ).loc b)
        (fun b => StableHlo.after opss.flatten (V₁ c) (Proc.devRef .tc b)) s')
      isplitl [HU] <;> iassumption)
    (hQ := fun s h c => ⟨(h c).1, (h c).2.2⟩)

end Pipeline

end Idealize.ShloMosaic

end
-- ==== Proof.K.Run.lean ====
/-
  The run of the row-sum kernel's program at any float instance, and its frame.

  At the region's exit the buffers hold what they held at its entry, but for the output array, which holds the row
  sums the write-backs put there. The three arrays read through two windows each are dealt in halves at the entry
  and gathered at the exit; the closing host lines then add the row sums up. Every weakly fair execution terminates;
  the two argument arrays are written by no host line and by no window, so they end as launched.
-/
import proofs.«165779_j71476845740753_1_alg».proof.Proof.K.Frame
import proofs.«165779_j71476845740753_1_alg».proof.Proof.K.Split
import proofs.«165779_j71476845740753_1_alg».proof.Proof.LibFrameAroundShared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output array after the region: the entry contents overwritten by the blocks the last column tiles wrote back. -/
abbrev outArr (c : Dev nD) : Buf (Elt F) ((c : Thread nD τ).loc main_v33) := (dats m 0 c).arrAt 7 cfg0.N

open Classical in
/-- Core `c`'s buffer contents at the region's exit: the entry contents with the output array at `outArr`. -/
def V1 (c : Dev nD) : Valuation τ sig (Elt F) := Function.update (V0 m c) (Proc.devRef .tc main_v33) (outArr m c)

theorem V1_out (c : Dev nD) : V1 m c (Proc.devRef .tc main_v33) = outArr m c := by
  unfold V1; exact Function.update_self _ _ _

theorem V1_of_ne (c : Dev nD) (b : Ref sig .tc) (hb : b ≠ main_v33) : V1 m c (Proc.devRef .tc b) = V0 m c (Proc.devRef .tc b) := by
  unfold V1; exact Function.update_of_ne (fun e => hb (Proc.devRef_injective _ e)) _ _

/-- The buffers that bypass the region hold at its exit what they held at its entry. -/
theorem V1_rest (c : Dev nD) : ∀ b ∈ Pipeline.restRefs sig spec0, V1 m c (Proc.devRef .tc b) = V0 m c (Proc.devRef .tc b) := fun b hb =>
  V1_of_ne m c b fun e => (Finset.mem_sdiff.mp hb).2 (Finset.mem_image.mpr ⟨7, Finset.mem_univ _, e.symm⟩)

/-- Each window's array at the region's entry is the entry valuation's, -/
theorem arr_entry (c : Dev nD) (w : Fin cfg0.W) : (dats m 0 c).arrAt w 0 = V m c (Pipeline.arrRef spec0 w) := A_eq m c w

/-- and at its exit the exit valuation's: an input array is never written, the output array is `outArr`. -/
theorem arr_exit (c : Dev nD) : ∀ w : Fin cfg0.W, (dats m 0 c).arrAt w cfg0.N = V1 m c (Proc.devRef .tc (Pipeline.arrRef spec0 w))
  | ⟨0, _⟩ => ((dats m 0 c).arrAt_in 0 rfl _).trans ((A_eq m c 0).trans (V1_of_ne m c main_v32 (by decide)).symm)
  | ⟨1, _⟩ => ((dats m 0 c).arrAt_in 1 rfl _).trans ((A_eq m c 1).trans (V1_of_ne m c main_v32 (by decide)).symm)
  | ⟨2, _⟩ => ((dats m 0 c).arrAt_in 2 rfl _).trans ((A_eq m c 2).trans (V1_of_ne m c main_v20 (by decide)).symm)
  | ⟨3, _⟩ => ((dats m 0 c).arrAt_in 3 rfl _).trans ((A_eq m c 3).trans (V1_of_ne m c main_v20 (by decide)).symm)
  | ⟨4, _⟩ => ((dats m 0 c).arrAt_in 4 rfl _).trans ((A_eq m c 4).trans (V1_of_ne m c main_v22 (by decide)).symm)
  | ⟨5, _⟩ => ((dats m 0 c).arrAt_in 5 rfl _).trans ((A_eq m c 5).trans (V1_of_ne m c main_v22 (by decide)).symm)
  | ⟨6, _⟩ => ((dats m 0 c).arrAt_in 6 rfl _).trans ((A_eq m c 6).trans (V1_of_ne m c main_v31 (by decide)).symm)
  | ⟨7, _⟩ => (V1_out m c).symm

/-- What a run of @main ends in: every window's array at what the write-backs make of it, every other unscoped buffer
    at what the closing host lines leave in it, computed from the exit contents. -/
abbrev RunPost (r : PUnit × MemSt nD τ sig (Elt F)) : Prop := ∀ c : Dev nD,
  (∀ w, r.2.mem (((cfgs 0).spec w).arr.view.loc (c.tc : Thread nD τ)) = (dats m 0 c).arrAt w (cfgs 0).N)
  ∧ ∀ b ∈ Pipeline.restRefs sig (cfgs 0).spec,
      r.2.mem ((c.tc : Thread nD τ).loc b) = StableHlo.after (List.flatten [hostOps1]) (V1 m c) (Proc.devRef .tc b)

set_option backward.isDefEq.respectTransparency.types false in
/-- At the compiled mesh, for any values, from any memory with zero counters: every weakly fair execution of @main
    terminates, in a state as `RunPost` says. -/
theorem run_main : θ_run defs (onTc (τ := τ) (main (F := F))) (s₀ m ρ) (RunPost m) :=
  Pipeline.θ_run_frame_around_track_shared cfgs (dats m) (0 : Fin 1) cellOf_inj winFacts₀0 block_pos0 arr_whole0 stage_whole0
    defs₀ Variants.none m ρ main
    (hbody := fun c => (body_obligation m c).loose) (howed := fun _ _ => rfl)
    (V₀ := V0 m) (V₁ := V1 m) (opss := [hostOps1]) (hsub := sfx_sub) (hfresh := sfx_fresh) (hkeep := sfx_keeps)
    (hmain := hmain m Variants.none)
    (hsplit := fun c => (arrays_iff_arrBufs c (dats m 0 c) (q_eq m c) (V m c) _ (arr_entry m c)).1)
    (hV₁ := V1_rest m)
    (hjoin := fun c => (arrays_iff_arrBufs c (dats m 0 c) (q_eq m c) (fun b => V1 m c (Proc.devRef .tc b)) _ (arr_exit m c)).2)
    (hresplit := fun c => (arrays_iff_arrBufs c (dats m 0 c) (q_eq m c) (fun b => V1 m c (Proc.devRef .tc b)) _ (arr_exit m c)).1)
    (hin := hin m) (hout := hout m)

/-! ## The argument arrays end as launched -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

theorem end_main_arg0 (c : Dev nD) :
    StableHlo.after (List.flatten [hostOps1]) (V1 m c) (Proc.devRef .tc main_arg0) = m ((c : Thread nD τ).loc main_arg0) :=
  (StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))).trans ((V1_of_ne m c main_arg0 (by decide)).trans (V_main_arg0 m c))
theorem end_main_arg1 (c : Dev nD) :
    StableHlo.after (List.flatten [hostOps1]) (V1 m c) (Proc.devRef .tc main_arg1) = m ((c : Thread nD τ).loc main_arg1) :=
  (StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))).trans ((V1_of_ne m c main_arg1 (by decide)).trans (V_main_arg1 m c))

/-- THE FRAME: the program runs to the end, faulting nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (end_main_arg0 m c),
     ((h c).2 main_arg1 (Pipeline.mem_restRefs_of main_arg1 (by decide) (by decide))).trans (end_main_arg1 m c)⟩) (run_main m ρ)

end Cert.Kernel.Fr

end
-- ==== Proof.KI.Setup.lean ====
/-
  What the frame of this pairwise-distance row-sum kernel is stated over, at any float instance: the buffers'
  contents when the region is entered (after the host lines that normalise the rows and form the row
  statistics), the reduction of @main to the region continued by the closing host lines, each window's block
  at a grid point, the two branch conditions of the body (the accumulator is reset at the first column tile
  and written out at the last) in closed form over the 8 x 8 grid, where the output window is idle, and the
  staging and scratch memrefs the body is called with.
-/
import proofs.«165779_j71476845740753_1_alg».proof.Proof.Gen.KernelIdeal.Launch
import proofs.«165779_j71476845740753_1_alg».proof.Proof.Gen.KernelIdeal.Skeleton
import proofs.«165779_j71476845740753_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it: it reduces to the region
    continued by the later lines, at the contents the earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch TensorCore references only, -/
theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write no array of the pipeline (each writes only its own result buffer, which is no window's array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl
  all_goals intro w; fin_cases w <;> simp only [StableHlo.nullary_writes, StableHlo.unary_writes, StableHlo.binary_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions over the grid -/

/-- The accumulator is reset: the point is in the first column tile. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The accumulator is written to the output block: the point is in the last column tile. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

/-! ## The memrefs the body is called with -/

/-- One staging buffer of the output window, through which its contents are stated. -/
abbrev VO0_7 : View sig .tc .vmem S1024x1 .f32 := (Memref.whole cc0_stg7_0 : Memref sig .tc .vmem S1024x1 .f32).view
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)

/-- The accumulator: a whole scoped buffer of the kernel's own, carried between grid points. -/
abbrev scM0_0 : Memref sig .tc .vmem S1024x1 .f32 := Memref.whole cc0_scratch0
abbrev VS0_0 : View sig .tc .vmem S1024x1 .f32 := scM0_0.view

/-- The core's scoped buffers that are no staging buffer are the accumulator alone, owned at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.KernelIdeal.Fr

end
-- ==== Proof.KI.RunA.lean ====
/-
  The body at a point of the first column tile that is not the last one: the accumulator is reset to zero and the
  tile's row sums are added to it; nothing is stored into the output block. Run symbolically on whole staging
  memrefs, the inputs at given contents, the output block's buffer handed back untouched, the accumulator at
  anything before; what the stores leave in the accumulator is the list of pieces the run finds.
-/
import proofs.«165779_j71476845740753_1_alg».proof.Proof.KI.Setup

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) :
    Σ' (L7 : List (View.Piece (Elt F) S1024x1 .f32)), { LS0 : List (View.Piece (Elt F) S1024x1 .f32) //
      ∀ (xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__pp_sum_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__pp_sum_kernel_eq_skeleton]; unfold cc0__pp_sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.KernelIdeal.Fr

end
-- ==== Proof.KI.RunB.lean ====
/-
  The body at a point of a middle column tile: the tile's row sums are added to the accumulator as the point
  before left it; nothing is stored into the output block.
-/
import proofs.«165779_j71476845740753_1_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) (xs0 : Vec F S1024x1 .f32) :
    Σ' (L7 : List (View.Piece (Elt F) S1024x1 .f32)), { LS0 : List (View.Piece (Elt F) S1024x1 .f32) //
      ∀ (xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__pp_sum_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__pp_sum_kernel_eq_skeleton]; unfold cc0__pp_sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.KernelIdeal.Fr

end
-- ==== Proof.KI.RunC.lean ====
/-
  The body at a point of the last column tile: the tile's row sums are added to the accumulator as the point
  before left it, and the accumulator is stored into the output block's buffer.
-/
import proofs.«165779_j71476845740753_1_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) (xs0 : Vec F S1024x1 .f32) :
    Σ' (L7 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__pp_sum_kernel i arg2 harg2 arg3 harg3 arg4 harg4 arg5 harg5 arg6 harg6 arg7 harg7 arg8 harg8 arg9 harg9 arg10 harg10) K } := by
  refine ⟨?_, ?_, fun E K => ?run⟩
  case run =>
    simp only [cc0__pp_sum_kernel_eq_skeleton]; unfold cc0__pp_sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.KernelIdeal.Fr

end
-- ==== Proof.KI.Shares.lean ====
/-
  How the full share of each buffer behind the windows' arrays is dealt among the windows. The normalised rows
  (in bf16) are read through windows 0 and 1, the squared row norms through windows 2 and 3, the row sums through
  windows 4 and 5: each of these three buffers is read twice, as the row tile and as the column tile of the
  pairwise product, so each of its two windows holds one half of the full share. The distances to the negative
  row (window 6) and the output (window 7) have a window each, at the full share.
-/
import proofs.«165779_j71476845740753_1_alg».proof.Proof.KI.Setup

noncomputable section

namespace Cert.KernelIdeal.Fr

open Cert.KernelIdeal Cert.KernelIdeal.Gen
open Idealize.ShloMosaic Idealize.SL Idealize.SL.RA

/-- The share each window holds of its array. -/
def qs : Fin cfg0.W → PosShare TreeShare
  | ⟨0, _⟩ => fullShare.left
  | ⟨1, _⟩ => fullShare.right
  | ⟨2, _⟩ => fullShare.left
  | ⟨3, _⟩ => fullShare.right
  | ⟨4, _⟩ => fullShare.left
  | ⟨5, _⟩ => fullShare.right
  | ⟨6, _⟩ => fullShare
  | ⟨7, _⟩ => fullShare

end Cert.KernelIdeal.Fr

end
-- ==== Proof.KI.Frame.lean ====
/-
  The frame of the row-sum kernel at any float instance: what each control case leaves in the output block's
  buffer and in the accumulator (the pieces its stores wrote, read back), what these hold after every grid point
  by recursion on the point, the pipeline's proof data — the arrays as the region finds them, the inputs' buffers
  at their blocks, the output's at the accumulator in the last column tile, the invariant the accumulator at what
  the point before left, the shares of the arrays read twice halved — and the body obligation at a generic point,
  by cases on the point's column tile: first (accumulator reset), middle, last (accumulator written out).
-/
import proofs.«165779_j71476845740753_1_alg».proof.Proof.KI.RunC
import proofs.«165779_j71476845740753_1_alg».proof.Proof.KI.Shares

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- What case A leaves in the output block's buffer: its pieces read back (none: a placeholder nothing consults, the window being idle and not written back at these points). -/
def out0_A_7 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) : Vec F S1024x1 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 x0 x1 x2 x3 x4 x5 x6).1)

/-- The pieces case A stores into the accumulator cover it. -/
theorem scover0_A_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) (y : S1024x1.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5 x6).2.1 S1024x1.size (by sl_kernel_rfl) y

/-- What case A leaves in the accumulator: its pieces read back. -/
def sout0_A_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5 x6).2.1)

/-- What case B leaves in the output block's buffer: its pieces read back (none: a placeholder nothing consults, the window being idle and not written back at these points). -/
def out0_B_7 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) (xs0 : Vec F S1024x1 .f32) : Vec F S1024x1 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 hc1 x0 x1 x2 x3 x4 x5 x6 xs0).1)

/-- The pieces case B stores into the accumulator cover it. -/
theorem scover0_B_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) (xs0 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 x6 xs0).2.1 S1024x1.size (by sl_kernel_rfl) y

/-- What case B leaves in the accumulator: its pieces read back. -/
def sout0_B_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) (xs0 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 x6 xs0).2.1)

/-- The pieces case C stores into the output block's buffer cover it. -/
theorem cover0_C_7 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) (xs0 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).1 S1024x1.size (by sl_kernel_rfl) y

/-- What case C leaves in the output block's buffer: its pieces read back. -/
def out0_C_7 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) (xs0 : Vec F S1024x1 .f32) : Vec F S1024x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 x5 x6 xs0).1)

/-- The pieces case C stores into the accumulator cover it. -/
theorem scover0_C_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) (xs0 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).2.1 S1024x1.size (by sl_kernel_rfl) y

/-- What case C leaves in the accumulator: its pieces read back. -/
def sout0_C_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) (xs0 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 x6 xs0).2.1)

/-! ## What the output block's buffer and the accumulator hold after each point -/

/-- After the body at position `n`: the case the column tile selects, run at the point's memrefs and input blocks, the
    accumulator taken (in the middle and last tiles) at what the point before left. -/
def outsAt0 (c : Dev nD) : (n : ℕ) → n < cfg0.N → Vec F S1024x1 .f32 × Vec F S1024x1 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 8 = 0 then
      if h1 : (n + 1) % 8 = 7 then
        False.elim (by omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      if h1 : (n + 1) % 8 = 7 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scoped buffers that are no staging buffer
    (the accumulator at anything); afterwards the accumulator at what the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
  Φ t := PhiS m c t.val (Nat.le_of_lt_succ t.isLt)
  q := qs
  owed _ := 0

theorem A_eq (c : Dev nD) (w : Fin cfg0.W) : (dats m 0 c).A w = V m c (Pipeline.arrRef spec0 w) := by
  dsimp only [dats]

theorem q_eq (c : Dev nD) : (dats m 0 c).q = qs := rfl

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases h0 : t.val % 8 = 0
  · by_cases h1 : t.val % 8 = 7
    · exfalso; omega
    · rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [outsAt0_A m c t h0 h1]
      unfold sout0_A_0; (try dsimp only)
      by_cases hz : t.val = 0
      ·
        rw [PhiS_castSucc m c t, PhiS_zero m c _ _ hz, scopedRest0_owns]
        iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0]
        · unfold owns; iexists _; isplitr
          swap; · iexact HS0
          ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t))
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      ·
        rw [PhiS_castSucc m c t, PhiS_pos m c _ _ hz]
        iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        iintro ⟨H0, H1, H2, H3, H4, H5, H6, H7, ⟨%es0, HS0⟩⟩
        isplitl [HS0]
        · unfold owns; iexists _; isplitr
          swap; · iexact HS0
          ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t))
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · have hz : t.val ≠ 0 := fun e => h0 (by rw [e])
    by_cases h1 : t.val % 8 = 7
    · rw [show (dats m 0 c).leavesExact 7 t = owns (c : Thread nD τ) (ms0_7 t) fullShare ((dats m 0 c).after 7 t) from by
        unfold Dat.leavesExact; rw [liveAt0_7_C t (fun h => h0 ((hcond0_0 t).mp h)) ((hcond0_1 t).mpr h1)], after0_7]
      rw [outsAt0_C m c t h0 h1]
      unfold out0_C_7 sout0_C_0; (try dsimp only)
      ·
        rw [PhiS_castSucc m c t, PhiS_pos m c _ _ hz]
        iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HS0]
        · unfold owns; iexists _; isplitr
          swap; · iexact HS0
          ipureintro; exact View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2)
    · rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B m c t h0 h1]
      unfold sout0_B_0; (try dsimp only)
      ·
        rw [PhiS_castSucc m c t, PhiS_pos m c _ _ hz]
        iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0]
        · unfold owns; iexists _; isplitr
          swap; · iexact HS0
          ipureintro; exact View.read_writes_of_cover _ _ _ _ _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scoped rest back: the accumulator's contents are forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest0_owns]
  iintro HS0
  iexists _; iexact HS0

end Cert.KernelIdeal.Fr

end
-- ==== Proof.KI.Split.lean ====
/-
  The buffers behind the windows' arrays, each whole at the full share, are the windowed arrays at the shares the
  windows hold. The eight windows read five buffers: the normalised rows (windows 0 and 1), the squared row norms
  (windows 2 and 3) and the row sums (windows 4 and 5) are each behind two windows, the distances to the negative
  row (window 6) and the output (window 7) behind one each. A full share is the composite of its left and its right
  half, so a buffer held whole at the full share is the same buffer held twice, once at each half; that is what
  the two windows on it hold. Both sides are written out as chains of points-tos over the five buffers, and the
  three shared buffers are split (or joined) along the share.
-/
import proofs.«165779_j71476845740753_1_alg».proof.Proof.KI.Shares
import Idealize.ShloMosaic.Rules.PointsTo
import Idealize.ShloMosaic.Lib.Pipeline.Kit

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

/-! ## The two sides as chains -/

/-- The buffers behind the eight windows' arrays are five. -/
theorem arrImage0 : Finset.univ.image (Pipeline.arrRef spec0) = [main_v32, main_v20, main_v22, main_v31, main_v33].toFinset := by decide

/-- The distinct buffers behind the arrays, one by one. -/
theorem arrBufs_chain (c : Dev nD) (Vv : (b : Ref sig .tc) → Buf (Elt F) ((c.tc : Thread nD τ).loc b)) :
    (Pipeline.arrBufs spec0 c Vv : sProp 𝕄)
      = iprop(((c.tc : Thread nD τ).loc main_v32 ↦{fullShare} Vv main_v32) ∗ ((c.tc : Thread nD τ).loc main_v20 ↦{fullShare} Vv main_v20)
          ∗ ((c.tc : Thread nD τ).loc main_v22 ↦{fullShare} Vv main_v22) ∗ ((c.tc : Thread nD τ).loc main_v31 ↦{fullShare} Vv main_v31)
          ∗ ((c.tc : Thread nD τ).loc main_v33 ↦{fullShare} Vv main_v33)) := by
  unfold Pipeline.arrBufs
  exact bigSep_eq_bigSepL_of_eq [main_v32, main_v20, main_v22, main_v31, main_v33] arrImage0 (by decide) _

/-- Each window holds its array at the share dealt to it: the inputs by the proof data's choice, the output (window 7)
    at the full share, which is also what is dealt to it. -/
theorem share_eq (c : Dev nD) (dat : Dat τ (Elt F) Unit ℕ (UR sig nD τ) ℕ cfg0 c) (hq : dat.q = qs) (w : Fin cfg0.W) :
    dat.share w = qs w := by
  unfold Dat.share
  rw [hq]
  fin_cases w <;> rfl

/-- A window's array is a whole buffer: held through its view it is the buffer held at all its elements. -/
theorem win_pts (c : Dev nD) (Vv : (b : Ref sig .tc) → Buf (Elt F) ((c.tc : Thread nD τ).loc b))
    (Fw : (w : Fin cfg0.W) → Buf (Elt F) ((cfg0.win w).arr.view.loc (c.tc : Thread nD τ)))
    (hF : ∀ w, Fw w = Vv (Pipeline.arrRef spec0 w)) (q : PosShare TreeShare) (w : Fin cfg0.W) :
    ((cfg0.win w).arr.view.loc (c.tc : Thread nD τ) ↦[(cfg0.win w).arr.view.set]{q} Fw w : sProp 𝕄)
      = ((c.tc : Thread nD τ).loc (Pipeline.arrRef spec0 w) ↦{q} Vv (Pipeline.arrRef spec0 w)) := by
  have h : (cfg0.win w).arr.view.set = Finset.univ := (arr_whole0 w).set_eq_univ
  rw [h, hF w]

/-- The windowed arrays, one by one, each at its buffer and its share. -/
theorem arrays_chain (c : Dev nD) (dat : Dat τ (Elt F) Unit ℕ (UR sig nD τ) ℕ cfg0 c) (hq : dat.q = qs)
    (Vv : (b : Ref sig .tc) → Buf (Elt F) ((c.tc : Thread nD τ).loc b))
    (Fw : (w : Fin cfg0.W) → Buf (Elt F) ((cfg0.win w).arr.view.loc (c.tc : Thread nD τ)))
    (hF : ∀ w, Fw w = Vv (Pipeline.arrRef spec0 w)) :
    (dat.arrays Fw : sProp 𝕄)
      = iprop(((c.tc : Thread nD τ).loc main_v32 ↦{fullShare.left} Vv main_v32) ∗ ((c.tc : Thread nD τ).loc main_v32 ↦{fullShare.right} Vv main_v32)
          ∗ ((c.tc : Thread nD τ).loc main_v20 ↦{fullShare.left} Vv main_v20) ∗ ((c.tc : Thread nD τ).loc main_v20 ↦{fullShare.right} Vv main_v20)
          ∗ ((c.tc : Thread nD τ).loc main_v22 ↦{fullShare.left} Vv main_v22) ∗ ((c.tc : Thread nD τ).loc main_v22 ↦{fullShare.right} Vv main_v22)
          ∗ ((c.tc : Thread nD τ).loc main_v31 ↦{fullShare} Vv main_v31) ∗ ((c.tc : Thread nD τ).loc main_v33 ↦{fullShare} Vv main_v33)) := by
  unfold Dat.arrays
  rw [show (bigSep Finset.univ fun w : Fin cfg0.W =>
        ((cfg0.win w).arr.view.loc (c.tc : Thread nD τ) ↦[(cfg0.win w).arr.view.set]{dat.share w} Fw w : sProp 𝕄))
      = bigSep Finset.univ fun w : Fin 8 => ((c.tc : Thread nD τ).loc (Pipeline.arrRef spec0 w) ↦{qs w} Vv (Pipeline.arrRef spec0 w) : sProp 𝕄)
      from bigSep_congr fun w _ => by rw [share_eq c dat hq w, win_pts c Vv Fw hF (qs w) w]]
  rw [bigSep_W0]
  rfl

/-! ## Along the shares -/

/-- A buffer held whole at the full share is the buffer held at the two halves of the full share. -/
theorem whole_halves (c : Dev nD) (b : Ref sig .tc) (f : Buf (Elt F) ((c.tc : Thread nD τ).loc b)) :
    ((c.tc : Thread nD τ).loc b ↦{fullShare} f : sProp 𝕄)
      ⊣⊢ iprop(((c.tc : Thread nD τ).loc b ↦{fullShare.left} f) ∗ ((c.tc : Thread nD τ).loc b ↦{fullShare.right} f)) :=
  pointsTo_share (PosShare.mem_left_op_right fullShare)

/-- The distinct buffers behind the arrays, whole at the full share, are the windowed arrays at the windows' shares:
    the three buffers two windows read are split into halves, one half a window; the other two go over as they are. -/
theorem arrays_iff_arrBufs (c : Dev nD) (dat : Dat τ (Elt F) Unit ℕ (UR sig nD τ) ℕ cfg0 c) (hq : dat.q = qs)
    (Vv : (b : Ref sig .tc) → Buf (Elt F) ((c.tc : Thread nD τ).loc b))
    (Fw : (w : Fin cfg0.W) → Buf (Elt F) ((cfg0.win w).arr.view.loc (c.tc : Thread nD τ)))
    (hF : ∀ w, Fw w = Vv (Pipeline.arrRef spec0 w)) :
    (Pipeline.arrBufs spec0 c Vv : sProp 𝕄) ⊣⊢ dat.arrays Fw := by
  rw [arrBufs_chain, arrays_chain c dat hq Vv Fw hF]
  constructor
  · iintro ⟨H32, H20, H22, H31, H33⟩
    ihave H32 := (whole_halves c main_v32 (Vv main_v32)).1 $$ H32
    icases H32 with ⟨H32l, H32r⟩
    ihave H20 := (whole_halves c main_v20 (Vv main_v20)).1 $$ H20
    icases H20 with ⟨H20l, H20r⟩
    ihave H22 := (whole_halves c main_v22 (Vv main_v22)).1 $$ H22
    icases H22 with ⟨H22l, H22r⟩
    isplitl [H32l]; · iexact H32l
    isplitl [H32r]; · iexact H32r
    isplitl [H20l]; · iexact H20l
    isplitl [H20r]; · iexact H20r
    isplitl [H22l]; · iexact H22l
    isplitl [H22r]; · iexact H22r
    isplitl [H31]; · iexact H31
    iexact H33
  · iintro ⟨H32l, H32r, H20l, H20r, H22l, H22r, H31, H33⟩
    isplitl [H32l H32r]
    · iapply (whole_halves c main_v32 (Vv main_v32)).2
      isplitl [H32l]; · iexact H32l
      iexact H32r
    isplitl [H20l H20r]
    · iapply (whole_halves c main_v20 (Vv main_v20)).2
      isplitl [H20l]; · iexact H20l
      iexact H20r
    isplitl [H22l H22r]
    · iapply (whole_halves c main_v22 (Vv main_v22)).2
      isplitl [H22l]; · iexact H22l
      iexact H22r
    isplitl [H31]; · iexact H31
    iexact H33

end Cert.KernelIdeal.Fr

end
-- ==== Proof.KI.Run.lean ====
/-
  The run of the row-sum kernel's program at any float instance, and its frame.

  At the region's exit the buffers hold what they held at its entry, but for the output array, which holds the row
  sums the write-backs put there. The three arrays read through two windows each are dealt in halves at the entry
  and gathered at the exit; the closing host lines then add the row sums up. Every weakly fair execution terminates;
  the two argument arrays are written by no host line and by no window, so they end as launched.
-/
import proofs.«165779_j71476845740753_1_alg».proof.Proof.KI.Frame
import proofs.«165779_j71476845740753_1_alg».proof.Proof.KI.Split
import proofs.«165779_j71476845740753_1_alg».proof.Proof.LibFrameAroundShared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output array after the region: the entry contents overwritten by the blocks the last column tiles wrote back. -/
abbrev outArr (c : Dev nD) : Buf (Elt F) ((c : Thread nD τ).loc main_v33) := (dats m 0 c).arrAt 7 cfg0.N

open Classical in
/-- Core `c`'s buffer contents at the region's exit: the entry contents with the output array at `outArr`. -/
def V1 (c : Dev nD) : Valuation τ sig (Elt F) := Function.update (V0 m c) (Proc.devRef .tc main_v33) (outArr m c)

theorem V1_out (c : Dev nD) : V1 m c (Proc.devRef .tc main_v33) = outArr m c := by
  unfold V1; exact Function.update_self _ _ _

theorem V1_of_ne (c : Dev nD) (b : Ref sig .tc) (hb : b ≠ main_v33) : V1 m c (Proc.devRef .tc b) = V0 m c (Proc.devRef .tc b) := by
  unfold V1; exact Function.update_of_ne (fun e => hb (Proc.devRef_injective _ e)) _ _

/-- The buffers that bypass the region hold at its exit what they held at its entry. -/
theorem V1_rest (c : Dev nD) : ∀ b ∈ Pipeline.restRefs sig spec0, V1 m c (Proc.devRef .tc b) = V0 m c (Proc.devRef .tc b) := fun b hb =>
  V1_of_ne m c b fun e => (Finset.mem_sdiff.mp hb).2 (Finset.mem_image.mpr ⟨7, Finset.mem_univ _, e.symm⟩)

/-- Each window's array at the region's entry is the entry valuation's, -/
theorem arr_entry (c : Dev nD) (w : Fin cfg0.W) : (dats m 0 c).arrAt w 0 = V m c (Pipeline.arrRef spec0 w) := A_eq m c w

/-- and at its exit the exit valuation's: an input array is never written, the output array is `outArr`. -/
theorem arr_exit (c : Dev nD) : ∀ w : Fin cfg0.W, (dats m 0 c).arrAt w cfg0.N = V1 m c (Proc.devRef .tc (Pipeline.arrRef spec0 w))
  | ⟨0, _⟩ => ((dats m 0 c).arrAt_in 0 rfl _).trans ((A_eq m c 0).trans (V1_of_ne m c main_v32 (by decide)).symm)
  | ⟨1, _⟩ => ((dats m 0 c).arrAt_in 1 rfl _).trans ((A_eq m c 1).trans (V1_of_ne m c main_v32 (by decide)).symm)
  | ⟨2, _⟩ => ((dats m 0 c).arrAt_in 2 rfl _).trans ((A_eq m c 2).trans (V1_of_ne m c main_v20 (by decide)).symm)
  | ⟨3, _⟩ => ((dats m 0 c).arrAt_in 3 rfl _).trans ((A_eq m c 3).trans (V1_of_ne m c main_v20 (by decide)).symm)
  | ⟨4, _⟩ => ((dats m 0 c).arrAt_in 4 rfl _).trans ((A_eq m c 4).trans (V1_of_ne m c main_v22 (by decide)).symm)
  | ⟨5, _⟩ => ((dats m 0 c).arrAt_in 5 rfl _).trans ((A_eq m c 5).trans (V1_of_ne m c main_v22 (by decide)).symm)
  | ⟨6, _⟩ => ((dats m 0 c).arrAt_in 6 rfl _).trans ((A_eq m c 6).trans (V1_of_ne m c main_v31 (by decide)).symm)
  | ⟨7, _⟩ => (V1_out m c).symm

/-- What a run of @main ends in: every window's array at what the write-backs make of it, every other unscoped buffer
    at what the closing host lines leave in it, computed from the exit contents. -/
abbrev RunPost (r : PUnit × MemSt nD τ sig (Elt F)) : Prop := ∀ c : Dev nD,
  (∀ w, r.2.mem (((cfgs 0).spec w).arr.view.loc (c.tc : Thread nD τ)) = (dats m 0 c).arrAt w (cfgs 0).N)
  ∧ ∀ b ∈ Pipeline.restRefs sig (cfgs 0).spec,
      r.2.mem ((c.tc : Thread nD τ).loc b) = StableHlo.after (List.flatten [hostOps1]) (V1 m c) (Proc.devRef .tc b)

set_option backward.isDefEq.respectTransparency.types false in
/-- At the compiled mesh, for any values, from any memory with zero counters: every weakly fair execution of @main
    terminates, in a state as `RunPost` says. -/
theorem run_main : θ_run defs (onTc (τ := τ) (main (F := F))) (s₀ m ρ) (RunPost m) :=
  Pipeline.θ_run_frame_around_track_shared cfgs (dats m) (0 : Fin 1) cellOf_inj winFacts₀0 block_pos0 arr_whole0 stage_whole0
    defs₀ Variants.none m ρ main
    (hbody := fun c => (body_obligation m c).loose) (howed := fun _ _ => rfl)
    (V₀ := V0 m) (V₁ := V1 m) (opss := [hostOps1]) (hsub := sfx_sub) (hfresh := sfx_fresh) (hkeep := sfx_keeps)
    (hmain := hmain m Variants.none)
    (hsplit := fun c => (arrays_iff_arrBufs c (dats m 0 c) (q_eq m c) (V m c) _ (arr_entry m c)).1)
    (hV₁ := V1_rest m)
    (hjoin := fun c => (arrays_iff_arrBufs c (dats m 0 c) (q_eq m c) (fun b => V1 m c (Proc.devRef .tc b)) _ (arr_exit m c)).2)
    (hresplit := fun c => (arrays_iff_arrBufs c (dats m 0 c) (q_eq m c) (fun b => V1 m c (Proc.devRef .tc b)) _ (arr_exit m c)).1)
    (hin := hin m) (hout := hout m)

/-! ## The argument arrays end as launched -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

theorem end_main_arg0 (c : Dev nD) :
    StableHlo.after (List.flatten [hostOps1]) (V1 m c) (Proc.devRef .tc main_arg0) = m ((c : Thread nD τ).loc main_arg0) :=
  (StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))).trans ((V1_of_ne m c main_arg0 (by decide)).trans (V_main_arg0 m c))
theorem end_main_arg1 (c : Dev nD) :
    StableHlo.after (List.flatten [hostOps1]) (V1 m c) (Proc.devRef .tc main_arg1) = m ((c : Thread nD τ).loc main_arg1) :=
  (StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))).trans ((V1_of_ne m c main_arg1 (by decide)).trans (V_main_arg1 m c))

/-- THE FRAME: the program runs to the end, faulting nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (end_main_arg0 m c),
     ((h c).2 main_arg1 (Pipeline.mem_restRefs_of main_arg1 (by decide) (by decide))).trans (end_main_arg1 m c)⟩) (run_main m ρ)

end Cert.KernelIdeal.Fr

end
-- ==== Proof.Spec.lean ====
/-
  The mathematics both programs compute, on the extended reals.

  From the rows p_r of a matrix (8192 rows of 512 entries) and three statistics of each row — xx_r, sx_r and dn_r
  (in the programs: the squared norm, the entry sum, and the distance to one fixed row) — the hinge matrix has the
  entry, at row r and column c,

      max 0 ( sqrt( max( xx_r + xx_c − 2·⟨p_r, p_c⟩ + 2e-6·(sx_r − sx_c) + 5.12e-10 , 1e-12 ) ) + 0.2 − dn_r ),

  the constants being the binary values of the same f32 literals in both programs. The loss is the sum of all its
  entries divided by 8191·8192, clamped below at 0. One program adds the entries of a row one column tile of 1024 at a
  time; the other adds all 8192 × 8192 entries at once. Addition on the extended reals is commutative and associative,
  so the two groupings agree.
-/
import Idealize.ShloMosaic.PureOps.Ideal
import Idealize.ShloMosaic.Lib.ValueIdx

noncomputable section

namespace PairLoss

open Idealize.ShloMosaic

/-- One entry of the hinge matrix, from the six scalars it depends on: the two rows' squared norms `xi`, `xj`, their
    inner product `g`, their entry sums `si`, `sj`, and the row's distance `dn` to the fixed row. -/
def entry (xi xj g si sj dn : EReal) : EReal :=
  max (Ideal.ofBits .f32 0x00000000#32)
    ((Ideal.sqrt (max ((((xi + xj) - Ideal.ofBits .f32 0x40000000#32 * g)
          + Ideal.ofBits .f32 0x360637BD#32 * (si - sj)) + Ideal.ofBits .f32 0x300CBCCC#32)
        (Ideal.ofBits .f32 0x2B8CBCCC#32))
      + Ideal.ofBits .f32 0x3E4CCCCD#32) - dn)

/-- The hinge matrix of the rows `p` with statistics `xx`, `sx`, `dn`. -/
def hinge (p : Fin 8192 → Fin 512 → EReal) (xx sx dn : Fin 8192 → EReal) (r c : Fin 8192) : EReal :=
  entry (xx r) (xx c) (∑ k : Fin 512, p r k * p c k) (sx r) (sx c) (dn r)

/-- Column `c'` of column tile `j`. -/
def col (j : Fin 8) (c' : Fin 1024) : Fin 8192 := ⟨j.val * 1024 + c'.val, by omega⟩

/-- A row's sum over one column tile. -/
def tileSum (f : Fin 8192 → Fin 8192 → EReal) (r : Fin 8192) (j : Fin 8) : EReal := ∑ c' : Fin 1024, f r (col j c')

/-- The sum of all entries, a row's entries added tile by tile. -/
def tiledTotal (f : Fin 8192 → Fin 8192 → EReal) : EReal := ∑ r : Fin 8192, ∑ j : Fin 8, tileSum f r j

/-- The sum of all entries. -/
def total (f : Fin 8192 → Fin 8192 → EReal) : EReal := ∑ r : Fin 8192, ∑ c : Fin 8192, f r c

/-- The loss from the sum of the entries. -/
def loss (t : EReal) : EReal :=
  max (Ideal.div t (Ideal.ofBits .f32 0x4C7FF800#32)) (Ideal.ofBits .f32 0x00000000#32)

end PairLoss

end
-- ==== Proof.KI.Tail.lean ====
/-
  The kernel program's closing host operations: the loss of the row sums' total.

  After its kernel region the program holds, in a column of 8192 entries, each row's sum of hinge entries. Six host
  operations follow: the column is summed over both axes from the initial value 0, the total is divided by the
  constant 8191 · 8192, and the quotient is clamped below at 0. Read at the extended reals the sum from 0 is the plain
  sum over every index of the column, so the result is `PairLoss.loss` of that sum.
-/
import proofs.«165779_j71476845740753_1_alg».proof.Proof.Gen.KernelIdeal.Launch
import proofs.«165779_j71476845740753_1_alg».proof.Proof.Spec
import Idealize.ShloMosaic.Lib.StableHlo.Run
import Idealize.ShloMosaic.PureOps.Ideal.Laws
import Idealize.ShloMosaic.Lib.ValueIdx

noncomputable section

namespace Cert.KernelIdeal.Fr

open Cert.KernelIdeal Cert.KernelIdeal.Gen Idealize.ShloMosaic Idealize.ShloMosaic.TcCoe Idealize.SL.Sem Idealize.ShloMosaic.StableHlo

/-- The host's sum of a column over both of its axes, from the initial value 0, is the sum of the column's entries. -/
theorem column_total (x : (⟨S8192x1, .f32⟩ : BufTy).Contents (Elt Ideal)) (i : S_.Idx) :
    Host.reduceAdd (F := Ideal) x (constant S_ .f32 0x00000000#32) reducesTo_S8192x1_S_d0_1 h_S_ i
      = ∑ j : S8192x1.Idx, x j := by
  simp only [Host.reduceAdd, Ideal.hostReduceAdd_def]
  rw [Ideal.hostReduceAdd_total reducesTo_S8192x1_S_d0_1 (fun b => b.elim0) x _ i]
  show Ideal.ofBits .f32 0x00000000#32 + _ = _
  rw [Ideal.ofBits_zero_f32, zero_add]

/-- After the closing host operations the result buffer holds the loss of the sum of the row-sum column, whatever the
    other buffers hold. -/
theorem tail_value (W : Valuation τ sig (Elt Ideal)) :
    StableHlo.after (List.flatten [hostOps1 (F := Ideal)]) W (Proc.devRef .tc main_v36)
      = fun _ => PairLoss.loss (∑ i : S8192x1.Idx, W (Proc.devRef .tc main_v33) i) := by
  simp only [hostOps1, List.flatten_cons, List.flatten_nil, List.append_nil]
  after_results
  funext i
  show max (Ideal.div (Host.reduceAdd (F := Ideal) (W (Proc.devRef .tc main_v33)) (constant S_ .f32 0x00000000#32)
      reducesTo_S8192x1_S_d0_1 h_S_ i) (Ideal.ofBits .f32 0x4C7FF800#32)) (Ideal.ofBits .f32 0x00000000#32) = _
  rw [column_total]
  rfl

end Cert.KernelIdeal.Fr

end
-- ==== Proof.KI.OutArr.lean ====
/-
  From the output window's blocks to its array. The grid is 8 x 8; the point t has row tile t / 8 and column
  tile t % 8. The output array has 8192 rows and one column and is cut into 8 blocks of 1024 rows; its index map
  sends a point to the block of its row tile, whatever the column tile, and the block is written back exactly at
  the last column tile (t % 8 = 7). So if what every such point leaves in the block's buffer is rows
  (t / 8) * 1024 .. (t / 8) * 1024 + 1023 of one array G, the array ends holding G: row R is covered by the point
  (R / 1024) * 8 + 7.
-/
import proofs.«165779_j71476845740753_1_alg».proof.Proof.KI.Frame
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ) (ρ : Dev nD → PrngReg)

/-- The output's index map over the grid: the point t is sent to the block of its row tile, t / 8, in the one
    column of blocks. -/
theorem outIndex : ∀ t : Fin cfg0.N, win0_7.index t (0 : Fin 2) = t.val / 8 ∧ win0_7.index t (1 : Fin 2) = 0 :=
  (by decide +kernel : ∀ t : Fin grid0.N, _)

/-- An index of the output array is in the point t's block iff each coordinate is in the block's range on its axis. -/
theorem mem_outBlk (t : Fin cfg0.N) (i : S8192x1.Idx) :
    i ∈ ((cfg0.win 7).blk t).view.set ↔ ∀ a : Fin 2, win0_7.index t a * S1024x1.size a ≤ (i a).val ∧ (i a).val < win0_7.index t a * S1024x1.size a + S1024x1.size a := by
  show i ∈ ((View.whole main_v33).slice (win0_7.rect t)).set ↔ _
  rw [View.set_slice_whole, Rect.mem_set_unit]
  exact Iff.rfl

/-- The row of the output array that row p of the point t's block is. -/
abbrev outRow (t : Fin cfg0.N) (p : Fin 1024) : Fin 8192 :=
  ⟨(t.val / 8) * 1024 + p.val, by have := t.isLt; have : cfg0.N = 64 := N_0; omega⟩

/-- What a point of the last column tile writes back is its block of G, when the block's buffer holds those rows of G. -/
theorem flushed7_eq (c : Dev nD) (G : Vec F S8192x1 .f32)
    (hfl : ∀ (t : Fin cfg0.N) (h7 : t.val % 8 = 7) (p : Fin 1024),
      (outsAt0 m c t.val t.isLt).1 (ix2 p 0) = G (ix2 (outRow t p) 0))
    (t : Fin cfg0.N) (hf : (cfg0.win 7).flush t = true) :
    (dats m 0 c).flushed 7 t = ((cfg0.win 7).blk t).view.read (Elt F) G := by
  show (cfg0.win 7).cut (grid0.coords t) ((dats m 0 c).after 7 t) = _
  rw [after0_7]
  have h7 : t.val % 8 = 7 := (flush0_7 t).mp hf
  obtain ⟨e0, e1⟩ := outIndex t
  funext y
  obtain ⟨p, q, rfl⟩ : ∃ (p : Fin 1024) (q : Fin 1), y = ix2 p q := ⟨y 0, y 1, eq_ix2 y⟩
  obtain rfl : q = 0 := Subsingleton.elim _ _
  rw [View.read_apply]
  show (outsAt0 m c t.val t.isLt).1 (ix2 p 0) = G (((cfg0.win 7).blk t).view.emb (ix2 p 0))
  rw [hfl t h7 p]
  refine congrArg G (funext fun a => Fin.ext ?_)
  match a with
  | ⟨0, _⟩ => show (t.val / 8) * 1024 + p.val = win0_7.index t (0 : Fin 2) * 1024 + 1 * p.val; omega
  | ⟨1, _⟩ => show 0 = win0_7.index t (1 : Fin 2) * 1 + 1 * 0; omega

/-- Every row of the output array is in the block of a point of the last column tile: row R in that of the point
    (R / 1024) * 8 + 7. -/
theorem outCover (i : S8192x1.Idx) :
    ∃ t : Fin cfg0.N, (cfg0.win 7).flush t = true ∧ i ∈ ((cfg0.win 7).blk t).view.set := by
  have hi0 : (i 0).val < 8192 := (i 0).isLt
  have hi1 : (i 1).val < 1 := (i 1).isLt
  have hN : cfg0.N = 64 := N_0
  let t : Fin cfg0.N := ⟨((i 0).val / 1024) * 8 + 7, by omega⟩
  have ht : t.val = ((i 0).val / 1024) * 8 + 7 := rfl
  obtain ⟨e0, e1⟩ := outIndex t
  refine ⟨t, (flush0_7 t).mpr (by omega), ?_⟩
  rw [mem_outBlk]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 1 ≤ (i 1).val ∧ (i 1).val < win0_7.index t (1 : Fin 2) * 1 + 1; omega

/-- The output array after the region is G, when every point of the last column tile leaves its rows of G in the
    block's buffer. -/
theorem arrAt7_eq (c : Dev nD) (G : Vec F S8192x1 .f32)
    (hfl : ∀ (t : Fin cfg0.N) (h7 : t.val % 8 = 7) (p : Fin 1024),
      (outsAt0 m c t.val t.isLt).1 (ix2 p 0) = G (ix2 (⟨(t.val / 8) * 1024 + p.val, by have := t.isLt; have : cfg0.N = 64 := N_0; omega⟩ : Fin 8192) 0)) :
    (dats m 0 c).arrAt 7 cfg0.N = G :=
  (dats m 0 c).arrAt_eq_of_cover 7 G (fun t hf => flushed7_eq m c G hfl t hf) outCover

end Cert.KernelIdeal.Fr

end
-- ==== Proof.KI.Payload.lean ====
/-
  The kernel body's arithmetic, read at one index, on the extended reals.

  One grid step works on a row stripe and a column stripe of 1024 rows of 512 entries each, with each row's squared norm and
  entry sum, and the row stripe's distances to the fixed row. At row `p` and column `q` of the tile the body forms

      sqrt( max( xx_p + xx_q − 2·⟨row_p, row_q⟩ + 2e-6·(sx_p − sx_q) + 5.12e-10 , 1e-12 ) ),

  then adds 0.2, subtracts the row's distance to the fixed row, clamps below at 0, and adds the row's sum over the 1024
  columns to the accumulator. The layout operations in between only move entries: a cast of a shape to itself is the
  identity, a column broadcast over the tile reads its row, a column transposed and broadcast reads its column, and the
  matrix product with a transposed stripe is the inner product of two rows.
-/
import proofs.«165779_j71476845740753_1_alg».proof.Proof.Gen.KernelIdeal.Skeleton
import proofs.«165779_j71476845740753_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Fr

open Cert.KernelIdeal Cert.KernelIdeal.Gen Idealize.ShloMosaic Idealize.ShloMosaic.ValueIdx

/-! ## Layout operations of a column vector, read at an index -/

/-- A column `[a, 1]` broadcast along its unit axis to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` transposed to the row `[1, a]` and broadcast to `[b, a]` reads, at `(p, c)`, the column's
    entry of row `c`. -/
theorem broadcastTo_transpose_col_apply {α : Type} {a b : ℕ} (v : (⟨2, ![a, 1]⟩ : Shape).Idx → α)
    (ht : (⟨2, ![a, 1]⟩ : Shape).Transposes [1, 0] ⟨2, ![1, a]⟩)
    (hb : (⟨2, ![1, a]⟩ : Shape).Broadcasts ⟨2, ![b, a]⟩) (p : Fin b) (c : Fin a) :
    broadcastTo ⟨2, ![b, a]⟩ (transpose ⟨2, ![1, a]⟩ [1, 0] v ht) hb (ix2 p c) = v (ix2 c (0 : Fin 1)) :=
  (broadcastTo_1b_ab_apply _ hb p c).trans (transpose_ix2_apply v ht (0 : Fin 1) c)

/-! ## The row sum -/

/-- The sum of a `[1024, 1024]` tile along its second axis, kept as a column: at row `p` the sum of that row. -/
theorem rowSum_apply (v : FVec Ideal S1024x1024 .f32) (hr : S1024x1024.Reduces [1] S1024) (hφ : FKind.Formats .f32)
    (hacc : (0x00000000#32 : BitVec 32) = FKind.add.neutral .f32 hφ) (hc : S1024.ShapeCasts S1024x1) (p : Fin 1024) (u : Fin 1) :
    shapeCast S1024x1 (multiReduction (F := Ideal) .add [1] S1024 v 0x00000000#32 hr hφ hacc) hc (ix2 p u)
      = ∑ q : Fin 1024, v (ix2 p q) := by
  refine (shapeCast_a_a1_apply _ hc p u).trans ?_
  refine (Ideal.multiReduction_add_single v _ hr hφ hacc (ix1 p)).trans ?_
  refine Finset.sum_congr rfl fun q _ => congrArg v ?_
  funext a
  match a with
  | ⟨0, _⟩ => rfl
  | ⟨1, _⟩ => rfl

/-! ## The product of one stripe with the transpose of another -/

theorem lhs_gram_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_gram_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_gram_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_gram_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The matrix product of a `[1024, 512]` stripe with a `[512, 1024]` one into a zero accumulator: at `(p, q)` the sum
    over the 512 contracted positions of the products. -/
theorem matmul_apply (y0 : FVec Ideal S1024x512 .bf16) (y1 : FVec Ideal S512x1024 .bf16) (p q : Fin 1024) :
    matmul dot_S1024x512_S512x1024_S1024x1024_1_0_0_1_n_n none y0 y1 (constant (F := Ideal) S1024x1024 .f32 0x00000000#32) (ix2 p q)
      = ∑ k : Fin 512, y0 (ix2 p k) * y1 (ix2 k q) := by
  refine (Ideal.matmul_constant_zero_apply dot_S1024x512_S512x1024_S1024x1024_1_0_0_1_n_n none y0 y1 (ix2 p q)).trans ?_
  rw [← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 p q) ((ValueIdx.contrEquiv1 dot_S1024x512_S512x1024_S1024x1024_1_0_0_1_n_n 512 rfl rfl).symm k) = ix2 p k := funext fun a => Fin.ext (by
    match a with
    | ⟨0, _⟩ => exact lhs_gram_0 _ _
    | ⟨1, _⟩ => exact (lhs_gram_1 _ _).trans hk)
  have er : dot_S1024x512_S512x1024_S1024x1024_1_0_0_1_n_n.rhsIdx (ix2 p q) ((ValueIdx.contrEquiv1 dot_S1024x512_S512x1024_S1024x1024_1_0_0_1_n_n 512 rfl rfl).symm k) = ix2 k q := funext fun a => Fin.ext (by
    match a with
    | ⟨0, _⟩ => exact (rhs_gram_0 _ _).trans hk
    | ⟨1, _⟩ => exact rhs_gram_1 _ _)
  rw [el, er]

/-- The same with the second stripe given row-wise and transposed: the inner products of the rows. -/
theorem gram_apply (y0 y1 : FVec Ideal S1024x512 .bf16) (ht : S1024x512.Transposes [1, 0] S512x1024) (p q : Fin 1024) :
    matmul dot_S1024x512_S512x1024_S1024x1024_1_0_0_1_n_n none y0 (transpose S512x1024 [1, 0] y1 ht)
        (constant (F := Ideal) S1024x1024 .f32 0x00000000#32) (ix2 p q)
      = ∑ k : Fin 512, y0 (ix2 p k) * y1 (ix2 q k) :=
  (matmul_apply y0 _ p q).trans (Finset.sum_congr rfl fun k _ => congrArg (y0 (ix2 p k) * ·) (transpose_ix2_apply y1 ht k q))

/-! ## The kernel's three layout idioms over a loaded block -/

/-- A loaded column, cast to its own shape and broadcast over the columns of the tile. -/
theorem colTile_apply (v : FVec Ideal S1024x1 .f32) (hc : S1024x1.ShapeCasts S1024x1) (hb : S1024x1.Broadcasts S1024x1024)
    (p q : Fin 1024) : broadcastTo S1024x1024 (shapeCast S1024x1 v hc) hb (ix2 p q) = v (ix2 p (0 : Fin 1)) := by
  rw [shapeCast_self v hc]
  exact broadcastTo_a1_ab_apply v hb p q

/-- A loaded column, cast to its own shape, transposed to a row and broadcast over the rows of the tile. -/
theorem rowTile_apply (v : FVec Ideal S1024x1 .f32) (hc : S1024x1.ShapeCasts S1024x1)
    (ht : S1024x1.Transposes [1, 0] S1x1024) (hb : S1x1024.Broadcasts S1024x1024) (p q : Fin 1024) :
    broadcastTo S1024x1024 (transpose S1x1024 [1, 0] (shapeCast S1024x1 v hc) ht) hb (ix2 p q) = v (ix2 q (0 : Fin 1)) := by
  rw [shapeCast_self v hc]
  exact broadcastTo_transpose_col_apply v ht hb p q

/-- The two loaded stripes, each cast to its own shape, the second transposed, multiplied into a zero accumulator. -/
theorem gramTile_apply (y0 y1 : FVec Ideal S1024x512 .bf16) (hc0 hc1 : S1024x512.ShapeCasts S1024x512)
    (ht : S1024x512.Transposes [1, 0] S512x1024) (p q : Fin 1024) :
    matmul dot_S1024x512_S512x1024_S1024x1024_1_0_0_1_n_n none (shapeCast S1024x512 y0 hc0)
        (transpose S512x1024 [1, 0] (shapeCast S1024x512 y1 hc1) ht)
        (constant (F := Ideal) S1024x1024 .f32 0x00000000#32) (ix2 p q)
      = ∑ k : Fin 512, y0 (ix2 p k) * y1 (ix2 q k) := by
  rw [shapeCast_self y0 hc0, shapeCast_self y1 hc1]
  exact gram_apply y0 y1 ht p q

/-! ## The payloads at an index -/

variable (x0 x1 : Vec Ideal S1024x512 .bf16) (x2 x3 x4 x5 x6 s : Vec Ideal S1024x1 .f32) (p q : Fin 1024)

/-- The distance tile at `(p, q)`: the square root of the clamped squared distance of row `p` of the first stripe
    and row `q` of the second, from their squared norms, their inner product and their entry sums. -/
theorem pay3_apply : k0_pay3 (F := Ideal) x0 x1 x2 x3 x4 x5 (ix2 p q)
      = Ideal.sqrt (max ((((x2 (ix2 p 0) + x3 (ix2 q 0)) - Ideal.ofBits .f32 0x40000000#32 * (∑ k : Fin 512, x0 (ix2 p k) * x1 (ix2 q k)))
            + Ideal.ofBits .f32 0x360637BD#32 * (x4 (ix2 p 0) - x5 (ix2 q 0))) + Ideal.ofBits .f32 0x300CBCCC#32) (Ideal.ofBits .f32 0x2B8CBCCC#32)) := by
  unfold k0_pay3
  show Ideal.sqrt (max ((((broadcastTo S1024x1024 (shapeCast S1024x1 x2 _) _ (ix2 p q)
            + broadcastTo S1024x1024 (transpose S1x1024 [1, 0] (shapeCast S1024x1 x3 _) _) _ (ix2 p q))
          - Ideal.ofBits .f32 0x40000000#32
            * matmul dot_S1024x512_S512x1024_S1024x1024_1_0_0_1_n_n none (shapeCast S1024x512 x0 _)
                (transpose S512x1024 [1, 0] (shapeCast S1024x512 x1 _) _)
                (constant (F := Ideal) S1024x1024 .f32 0x00000000#32) (ix2 p q))
        + Ideal.ofBits .f32 0x360637BD#32
          * (broadcastTo S1024x1024 (shapeCast S1024x1 x4 _) _ (ix2 p q)
            - broadcastTo S1024x1024 (transpose S1x1024 [1, 0] (shapeCast S1024x1 x5 _) _) _ (ix2 p q)))
      + Ideal.ofBits .f32 0x300CBCCC#32) (Ideal.ofBits .f32 0x2B8CBCCC#32)) = _
  rw [colTile_apply x2, rowTile_apply x3, gramTile_apply x0 x1, colTile_apply x4, rowTile_apply x5]

/-- The accumulator's next value at row `p`: the old value plus the row's sum of hinged distances over the tile. -/
theorem pay1_apply (v35 : FVec Ideal S1024x1024 .f32) : k0_pay1 (F := Ideal) v35 x6 s (ix2 p 0)
      = s (ix2 p 0) + ∑ q : Fin 1024, max (Ideal.ofBits .f32 0x00000000#32) ((v35 (ix2 p q) + Ideal.ofBits .f32 0x3E4CCCCD#32) - x6 (ix2 p 0)) := by
  unfold k0_pay1
  refine (congrFun (shapeCast_self _ _) (ix2 p (0 : Fin 1))).trans ?_
  show s (ix2 p 0) + shapeCast S1024x1 (multiReduction (F := Ideal) .add [1] S1024 _ 0x00000000#32 _ _ _) _ (ix2 p (0 : Fin 1)) = _
  refine congrArg (s (ix2 p 0) + ·) ?_
  refine (rowSum_apply _ _ _ _ _ p 0).trans ?_
  refine Finset.sum_congr rfl fun q _ => ?_
  show max (Ideal.ofBits .f32 0x00000000#32)
      ((v35 (ix2 p q) + Ideal.ofBits .f32 0x3E4CCCCD#32) - broadcastTo S1024x1024 (shapeCast S1024x1 x6 _) _ (ix2 p q)) = _
  rw [colTile_apply x6]

/-- The accumulator's first value: zero at every row. -/
theorem pay2_apply : k0_pay2 (F := Ideal) (ix2 p 0) = 0 := by
  unfold k0_pay2
  refine (congrFun (shapeCast_self _ _) (ix2 p (0 : Fin 1))).trans ?_
  exact Ideal.ofBits_zero_f32

/-- One grid step at row `p`: the accumulator grows by the row's hinge entries against the column tile. -/
theorem step_apply : k0_pay1 (F := Ideal) (k0_pay3 x0 x1 x2 x3 x4 x5) x6 s (ix2 p 0)
      = s (ix2 p 0) + ∑ q : Fin 1024, PairLoss.entry (x2 (ix2 p 0)) (x3 (ix2 q 0)) (∑ k : Fin 512, x0 (ix2 p k) * x1 (ix2 q k)) (x4 (ix2 p 0)) (x5 (ix2 q 0)) (x6 (ix2 p 0)) := by
  refine (pay1_apply x6 s p (k0_pay3 x0 x1 x2 x3 x4 x5)).trans ?_
  refine congrArg (s (ix2 p 0) + ·) (Finset.sum_congr rfl fun q _ => ?_)
  rw [pay3_apply x0 x1 x2 x3 x4 x5 p q]
  rfl

end Cert.KernelIdeal.Fr

end
-- ==== Proof.KI.Pieces.lean ====
/-
  What each control case's stores leave, read back, is a payload of the body's skeleton. The accumulator: in the
  first column tile it is stored twice through the whole-buffer rectangle, first the zero vector, then, of that
  zero vector loaded back, the sum with the tile's row sums, and the later store covers the earlier; in the middle
  and last tiles it is stored once, the sum of what the point before left with the tile's row sums. The output
  block's buffer in the last tile is stored once, with the accumulator as just loaded back after its store. Every
  load and store goes through the rectangle of the whole buffer at zero offsets, through which a load reads the
  contents, one covering store leaves its payload, and a load of what one such store left reads that payload; the
  staging memrefs are whole buffers, so what they read of contents written as read is those contents.
-/
import proofs.«165779_j71476845740753_1_alg».proof.Proof.KI.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The offsets of every load and store of the body are zero on both axes. -/
private theorem hz00 : (![0, 0] : Fin 2 → Nat) = fun _ => 0 := funext fun a => by fin_cases a <;> rfl

/-- First column tile: the accumulator holds the tile's row sums added to the zero vector it was reset to. -/
theorem sout0_A_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay1 (k0_pay3 x0 x1 x2 x3 x4 x5) x6 (k0_pay2 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S1024x1) hz00, View.readCov_unit_zero (S := S1024x1) _ hz00]
  simp only [View.readAt_eq_ld, harg2.read_unread, harg3.read_unread, harg4.read_unread, harg5.read_unread, harg6.read_unread, harg7.read_unread, harg8.read_unread, harg9.read_unread, harg10.read_unread, View.ld_unit_zero (S := S1024x1) hz00, View.ld_unit_zero (S := S1024x512) hz00]

/-- Middle column tile: the accumulator holds the tile's row sums added to what the point before left. -/
theorem sout0_B_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) (xs0 : Vec F S1024x1 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay1 (k0_pay3 x0 x1 x2 x3 x4 x5) x6 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero hz00]
  simp only [View.readAt_eq_ld, harg2.read_unread, harg3.read_unread, harg4.read_unread, harg5.read_unread, harg6.read_unread, harg7.read_unread, harg8.read_unread, harg9.read_unread, harg10.read_unread, View.ld_unit_zero (S := S1024x1) hz00, View.ld_unit_zero (S := S1024x512) hz00]

/-- Last column tile: the accumulator holds the tile's row sums added to what the point before left, -/
theorem sout0_C_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) (xs0 : Vec F S1024x1 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay1 (k0_pay3 x0 x1 x2 x3 x4 x5) x6 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz00]
  simp only [View.readAt_eq_ld, harg2.read_unread, harg3.read_unread, harg4.read_unread, harg5.read_unread, harg6.read_unread, harg7.read_unread, harg8.read_unread, harg9.read_unread, harg10.read_unread, View.ld_unit_zero (S := S1024x1) hz00, View.ld_unit_zero (S := S1024x512) hz00]

/-- and the output block's buffer holds the same: the accumulator loaded back after its store. -/
theorem out0_C_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x512 .bf16) (x1 : Vec F S1024x512 .bf16) (x2 : Vec F S1024x1 .f32) (x3 : Vec F S1024x1 .f32) (x4 : Vec F S1024x1 .f32) (x5 : Vec F S1024x1 .f32) (x6 : Vec F S1024x1 .f32) (xs0 : Vec F S1024x1 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay1 (k0_pay3 x0 x1 x2 x3 x4 x5) x6 xs0 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz00]
  simp only [View.readAt_eq_ld, harg2.read_unread, harg3.read_unread, harg4.read_unread, harg5.read_unread, harg6.read_unread, harg7.read_unread, harg8.read_unread, harg9.read_unread, harg10.read_unread, View.readCov_unit_zero (S := S1024x1) _ hz00, View.ld_unit_zero (S := S1024x1) hz00, View.ld_unit_zero (S := S1024x512) hz00]

end Cert.KernelIdeal.Fr

end
-- ==== Proof.KI.Blocks.lean ====
/-
  Where each input block sits in its array.

  The grid has 8 x 8 points, run row-major: point t has row tile t / 8 and column tile t % 8. Every input window cuts
  its array into blocks of 1024 rows. The windows with an even number (0, 2, 4, 6) take the block whose number is the
  row tile, the windows with an odd number (1, 3, 5) the block whose number is the column tile; none moves along the
  second axis. A block's coordinate in the array is the block's number times the block's extent plus the coordinate
  inside the block, so row p of the block at point t is row (t / 8)·1024 + p of the array for an even window and row
  (t % 8)·1024 + p for an odd one, and the second coordinate is unchanged.

  Windows 0 and 1 read the same 8192 x 512 array (the rows), windows 2 and 3 the same 8192 x 1 array, windows 4 and 5
  another, and window 6 a third: one as the row side and one as the column side of a pair of rows.
-/
import proofs.«165779_j71476845740753_1_alg».proof.Proof.KI.Setup
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe
open Idealize.ShloMosaic.ValueIdx

variable {F : FTy → Type} [FloatOps F]

/-! ## Rows of the array from a grid point and a row of the block -/

/-- The grid has 64 points. -/
theorem lt64 (t : Fin cfg0.N) : t.val < 64 := t.isLt.trans_eq N_0

/-- The array row under row `p` of the row tile of point `t`. -/
def rowOf (t : Fin cfg0.N) (p : Fin 1024) : Fin 8192 := ⟨(t.val / 8) * 1024 + p.val, by have := lt64 t; omega⟩

/-- The array row under row `q` of the column tile of point `t`. -/
def colOf (t : Fin cfg0.N) (q : Fin 1024) : Fin 8192 := ⟨(t.val % 8) * 1024 + q.val, by omega⟩

theorem rowOf_val (t : Fin cfg0.N) (p : Fin 1024) : (rowOf t p).val = (t.val / 8) * 1024 + p.val := rfl
theorem colOf_val (t : Fin cfg0.N) (q : Fin 1024) : (colOf t q).val = (t.val % 8) * 1024 + q.val := rfl

/-! ## The block numbers, decided over the grid

  An even window's block number is (t / 8, 0); an odd window's is (t % 8, 0). -/

theorem idx0 : ∀ t : Fin cfg0.N, win0_0.index t (0 : Fin 2) = t.val / 8 ∧ win0_0.index t (1 : Fin 2) = 0 :=
  (by decide +kernel : ∀ t : Fin grid0.N, _)
theorem idx1 : ∀ t : Fin cfg0.N, win0_1.index t (0 : Fin 2) = t.val % 8 ∧ win0_1.index t (1 : Fin 2) = 0 :=
  (by decide +kernel : ∀ t : Fin grid0.N, _)
theorem idx2 : ∀ t : Fin cfg0.N, win0_2.index t (0 : Fin 2) = t.val / 8 ∧ win0_2.index t (1 : Fin 2) = 0 :=
  (by decide +kernel : ∀ t : Fin grid0.N, _)
theorem idx3 : ∀ t : Fin cfg0.N, win0_3.index t (0 : Fin 2) = t.val % 8 ∧ win0_3.index t (1 : Fin 2) = 0 :=
  (by decide +kernel : ∀ t : Fin grid0.N, _)
theorem idx4 : ∀ t : Fin cfg0.N, win0_4.index t (0 : Fin 2) = t.val / 8 ∧ win0_4.index t (1 : Fin 2) = 0 :=
  (by decide +kernel : ∀ t : Fin grid0.N, _)
theorem idx5 : ∀ t : Fin cfg0.N, win0_5.index t (0 : Fin 2) = t.val % 8 ∧ win0_5.index t (1 : Fin 2) = 0 :=
  (by decide +kernel : ∀ t : Fin grid0.N, _)
theorem idx6 : ∀ t : Fin cfg0.N, win0_6.index t (0 : Fin 2) = t.val / 8 ∧ win0_6.index t (1 : Fin 2) = 0 :=
  (by decide +kernel : ∀ t : Fin grid0.N, _)

/-! ## Each block, entry by entry -/

variable (m : (ℓ : Loc nD τ sig) → Buf (Elt F) ℓ) (c : Dev nD) (t : Fin cfg0.N)

/-- Window 0 holds the rows of the row tile: entry `(p, k)` of its block at point `t` is the array's entry
    `(rowOf t p, k)`. -/
theorem iblk0_apply (p : Fin 1024) (k : Fin 512) :
    iblk m c 0 t (ix2 p k) = V m c main_v32 (ix2 (rowOf t p) k) := by
  show V m c main_v32 (((cfg0.win 0).blk t).view.emb (ix2 p k)) = _
  refine congrArg _ ?_
  funext a; apply Fin.ext
  match a with
  | ⟨0, _⟩ =>
    show win0_0.index t (0 : Fin 2) * 1024 + 1 * p.val = (t.val / 8) * 1024 + p.val
    rw [(idx0 t).1]; omega
  | ⟨1, _⟩ =>
    show win0_0.index t (1 : Fin 2) * 512 + 1 * k.val = k.val
    rw [(idx0 t).2]; omega

/-- Window 1 holds the rows of the column tile: entry `(q, k)` of its block at point `t` is the array's entry
    `(colOf t q, k)`. -/
theorem iblk1_apply (q : Fin 1024) (k : Fin 512) :
    iblk m c 1 t (ix2 q k) = V m c main_v32 (ix2 (colOf t q) k) := by
  show V m c main_v32 (((cfg0.win 1).blk t).view.emb (ix2 q k)) = _
  refine congrArg _ ?_
  funext a; apply Fin.ext
  match a with
  | ⟨0, _⟩ =>
    show win0_1.index t (0 : Fin 2) * 1024 + 1 * q.val = (t.val % 8) * 1024 + q.val
    rw [(idx1 t).1]; omega
  | ⟨1, _⟩ =>
    show win0_1.index t (1 : Fin 2) * 512 + 1 * k.val = k.val
    rw [(idx1 t).2]; omega

/-- Window 2 holds rows of the first 8192 x 1 array: entry `p` of its block at point `t` is the array's entry at row `rowOf t p`. -/
theorem iblk2_apply (p : Fin 1024) :
    iblk m c 2 t (ix2 p (0 : Fin 1)) = V m c main_v20 (ix2 (rowOf t p) (0 : Fin 1)) := by
  show V m c main_v20 (((cfg0.win 2).blk t).view.emb (ix2 p (0 : Fin 1))) = _
  refine congrArg _ ?_
  funext a; apply Fin.ext
  match a with
  | ⟨0, _⟩ =>
    show win0_2.index t (0 : Fin 2) * 1024 + 1 * p.val = (t.val / 8) * 1024 + p.val
    rw [(idx2 t).1]; omega
  | ⟨1, _⟩ =>
    show win0_2.index t (1 : Fin 2) * 1 + 1 * 0 = 0
    rw [(idx2 t).2]

/-- Window 3 holds rows of the first 8192 x 1 array, taken at the column tile: entry `q` of its block at point `t` is the array's
    entry at row `colOf t q`. -/
theorem iblk3_apply (q : Fin 1024) :
    iblk m c 3 t (ix2 q (0 : Fin 1)) = V m c main_v20 (ix2 (colOf t q) (0 : Fin 1)) := by
  show V m c main_v20 (((cfg0.win 3).blk t).view.emb (ix2 q (0 : Fin 1))) = _
  refine congrArg _ ?_
  funext a; apply Fin.ext
  match a with
  | ⟨0, _⟩ =>
    show win0_3.index t (0 : Fin 2) * 1024 + 1 * q.val = (t.val % 8) * 1024 + q.val
    rw [(idx3 t).1]; omega
  | ⟨1, _⟩ =>
    show win0_3.index t (1 : Fin 2) * 1 + 1 * 0 = 0
    rw [(idx3 t).2]

/-- Window 4 holds rows of the second 8192 x 1 array: entry `p` of its block at point `t` is the array's entry at row `rowOf t p`. -/
theorem iblk4_apply (p : Fin 1024) :
    iblk m c 4 t (ix2 p (0 : Fin 1)) = V m c main_v22 (ix2 (rowOf t p) (0 : Fin 1)) := by
  show V m c main_v22 (((cfg0.win 4).blk t).view.emb (ix2 p (0 : Fin 1))) = _
  refine congrArg _ ?_
  funext a; apply Fin.ext
  match a with
  | ⟨0, _⟩ =>
    show win0_4.index t (0 : Fin 2) * 1024 + 1 * p.val = (t.val / 8) * 1024 + p.val
    rw [(idx4 t).1]; omega
  | ⟨1, _⟩ =>
    show win0_4.index t (1 : Fin 2) * 1 + 1 * 0 = 0
    rw [(idx4 t).2]

/-- Window 5 holds rows of the second 8192 x 1 array, taken at the column tile: entry `q` of its block at point `t` is the array's
    entry at row `colOf t q`. -/
theorem iblk5_apply (q : Fin 1024) :
    iblk m c 5 t (ix2 q (0 : Fin 1)) = V m c main_v22 (ix2 (colOf t q) (0 : Fin 1)) := by
  show V m c main_v22 (((cfg0.win 5).blk t).view.emb (ix2 q (0 : Fin 1))) = _
  refine congrArg _ ?_
  funext a; apply Fin.ext
  match a with
  | ⟨0, _⟩ =>
    show win0_5.index t (0 : Fin 2) * 1024 + 1 * q.val = (t.val % 8) * 1024 + q.val
    rw [(idx5 t).1]; omega
  | ⟨1, _⟩ =>
    show win0_5.index t (1 : Fin 2) * 1 + 1 * 0 = 0
    rw [(idx5 t).2]

/-- Window 6 holds rows of the third 8192 x 1 array: entry `p` of its block at point `t` is the array's entry at row `rowOf t p`. -/
theorem iblk6_apply (p : Fin 1024) :
    iblk m c 6 t (ix2 p (0 : Fin 1)) = V m c main_v31 (ix2 (rowOf t p) (0 : Fin 1)) := by
  show V m c main_v31 (((cfg0.win 6).blk t).view.emb (ix2 p (0 : Fin 1))) = _
  refine congrArg _ ?_
  funext a; apply Fin.ext
  match a with
  | ⟨0, _⟩ =>
    show win0_6.index t (0 : Fin 2) * 1024 + 1 * p.val = (t.val / 8) * 1024 + p.val
    rw [(idx6 t).1]; omega
  | ⟨1, _⟩ =>
    show win0_6.index t (1 : Fin 2) * 1 + 1 * 0 = 0
    rw [(idx6 t).2]

end Cert.KernelIdeal.Fr

end
-- ==== Proof.KI.Acc.lean ====
/-
  What the accumulator holds after each grid point, on the extended reals.

  The grid has 8 x 8 points, run row-major: point t works on row tile t / 8 and column tile t % 8. Write H for the hinge
  matrix of the arrays the region finds (its entry is the hinge of the distance of two rows against the row's distance
  to the fixed row). One grid step adds, at row p of the tile, the sum of row (t / 8)·1024 + p of H over the 1024 columns
  of the point's column tile; the first column tile starts from zero. So after point t the accumulator holds, at row p,
  the sum of that row of H over the column tiles 0, …, t % 8, and after a point of the last column tile, where the
  accumulator is also written to the output block's buffer, that buffer holds the sum of the row's eight tile sums.
-/
import proofs.«165779_j71476845740753_1_alg».proof.Proof.KI.Frame
import proofs.«165779_j71476845740753_1_alg».proof.Proof.KI.Payload
import proofs.«165779_j71476845740753_1_alg».proof.Proof.KI.Pieces
import proofs.«165779_j71476845740753_1_alg».proof.Proof.KI.Blocks
import proofs.«165779_j71476845740753_1_alg».proof.Proof.Spec
import Idealize.ShloMosaic.Lib.ValueIdx
import Mathlib.Algebra.BigOperators.Group.Finset.Basic
import Mathlib.Algebra.BigOperators.Fin

noncomputable section

namespace Cert.KernelIdeal.Fr

open Cert.KernelIdeal Cert.KernelIdeal.Gen Idealize.ShloMosaic Idealize.ShloMosaic.TcCoe Idealize.ShloMosaic.ValueIdx Idealize.SL.Sem

/-! ## The hinge matrix of the arrays the region finds -/

/-- The hinge matrix's entry at row `r` and column `cc`, from the normalised rows and the three row statistics as the
    region finds them. -/
def Hk (m : (ℓ : Loc nD τ sig) → Buf (Elt Ideal) ℓ) (c : Dev nD) : Fin 8192 → Fin 8192 → EReal := fun r cc =>
  PairLoss.entry (V m c main_v20 (ix2 r (0 : Fin 1))) (V m c main_v20 (ix2 cc (0 : Fin 1))) (∑ k : Fin 512, (show EReal from V m c main_v32 (ix2 r k)) * (show EReal from V m c main_v32 (ix2 cc k)))
    (V m c main_v22 (ix2 r (0 : Fin 1))) (V m c main_v22 (ix2 cc (0 : Fin 1))) (V m c main_v31 (ix2 r (0 : Fin 1)))

variable (m : (ℓ : Loc nD τ sig) → Buf (Elt Ideal) ℓ) (c : Dev nD)

/-! ## One grid step over blocks that are restrictions of the arrays -/

/-- One step at row `p` of the tile: if the seven blocks read the arrays at row `r` and at the columns `cc q`, the
    accumulator grows by the hinge entries of row `r` at those columns. -/
theorem step_blocks (r : Fin 8192) (cc : Fin 1024 → Fin 8192) (p : Fin 1024)
    (b0 b1 : Vec Ideal S1024x512 .bf16) (b2 b3 b4 b5 b6 s : Vec Ideal S1024x1 .f32)
    (e0 : ∀ k : Fin 512, b0 (ix2 p k) = V m c main_v32 (ix2 r k))
    (e1 : ∀ (q : Fin 1024) (k : Fin 512), b1 (ix2 q k) = V m c main_v32 (ix2 (cc q) k))
    (e2 : b2 (ix2 p (0 : Fin 1)) = V m c main_v20 (ix2 r (0 : Fin 1)))
    (e3 : ∀ q : Fin 1024, b3 (ix2 q (0 : Fin 1)) = V m c main_v20 (ix2 (cc q) (0 : Fin 1)))
    (e4 : b4 (ix2 p (0 : Fin 1)) = V m c main_v22 (ix2 r (0 : Fin 1)))
    (e5 : ∀ q : Fin 1024, b5 (ix2 q (0 : Fin 1)) = V m c main_v22 (ix2 (cc q) (0 : Fin 1)))
    (e6 : b6 (ix2 p (0 : Fin 1)) = V m c main_v31 (ix2 r (0 : Fin 1))) :
    k0_pay1 (F := Ideal) (k0_pay3 b0 b1 b2 b3 b4 b5) b6 s (ix2 p (0 : Fin 1))
      = s (ix2 p (0 : Fin 1)) + ∑ q : Fin 1024, Hk m c r (cc q) := by
  refine (step_apply b0 b1 b2 b3 b4 b5 b6 s p).trans ?_
  refine congrArg (s (ix2 p (0 : Fin 1)) + ·) (Finset.sum_congr rfl fun q _ => ?_)
  unfold Hk
  rw [e2, e3 q, e4, e5 q, e6]
  refine congrArg (fun g => PairLoss.entry _ _ g _ _ _) (Finset.sum_congr rfl fun k _ => ?_)
  rw [e0 k, e1 q k]

/-! ## One grid step at a point of the grid -/

/-- Row `r`'s sum over column tile number `j`, a natural number (zero past the last tile). -/
def tileN (r : Fin 8192) (j : ℕ) : EReal := if h : j < 8 then PairLoss.tileSum (Hk m c) r ⟨j, h⟩ else 0

/-- At grid point `t` the body adds, at row `p` of the tile, the sum of row `rowOf t p` over the point's column tile. -/
theorem step_point (t : Fin cfg0.N) (p : Fin 1024) (s : Vec Ideal S1024x1 .f32) :
    k0_pay1 (F := Ideal) (k0_pay3 (iblk m c 0 t) (iblk m c 1 t) (iblk m c 2 t) (iblk m c 3 t) (iblk m c 4 t) (iblk m c 5 t)) (iblk m c 6 t) s (ix2 p (0 : Fin 1))
      = s (ix2 p (0 : Fin 1)) + tileN m c (rowOf t p) (t.val % 8) := by
  refine (step_blocks m c (rowOf t p) (colOf t) p (iblk m c 0 t) (iblk m c 1 t) (iblk m c 2 t) (iblk m c 3 t) (iblk m c 4 t) (iblk m c 5 t) (iblk m c 6 t) s
    (fun k => iblk0_apply m c t p k) (fun q k => iblk1_apply m c t q k) (iblk2_apply m c t p) (fun q => iblk3_apply m c t q)
    (iblk4_apply m c t p) (fun q => iblk5_apply m c t q) (iblk6_apply m c t p)).trans ?_
  refine congrArg (s (ix2 p (0 : Fin 1)) + ·) ?_
  have h8 : t.val % 8 < 8 := Nat.mod_lt _ (by decide)
  unfold tileN
  rw [dif_pos h8]
  unfold PairLoss.tileSum
  exact Finset.sum_congr rfl fun q _ => congrArg (Hk m c (rowOf t p)) (Fin.ext rfl)

/-! ## The accumulator after a point, from the accumulator before it -/

/-- In the first column tile the accumulator is one step from zero. -/
theorem acc_first (t : Fin cfg0.N) (h0 : t.val % 8 = 0) (h1 : ¬t.val % 8 = 7) :
    (outsAt0 (F := Ideal) m c t.val t.isLt).2
      = k0_pay1 (k0_pay3 (iblk m c 0 t) (iblk m c 1 t) (iblk m c 2 t) (iblk m c 3 t) (iblk m c 4 t) (iblk m c 5 t)) (iblk m c 6 t) (k0_pay2 (F := Ideal)) := by
  rw [outsAt0_A m c t h0 h1]
  dsimp only
  exact sout0_A_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)

/-- In a later column tile the accumulator is one step from what the point before left. -/
theorem acc_later (t : Fin cfg0.N) (h0 : ¬t.val % 8 = 0) :
    (outsAt0 (F := Ideal) m c t.val t.isLt).2
      = k0_pay1 (k0_pay3 (iblk m c 0 t) (iblk m c 1 t) (iblk m c 2 t) (iblk m c 3 t) (iblk m c 4 t) (iblk m c 5 t)) (iblk m c 6 t) (outsAt0 (F := Ideal) m c (t.val - 1) (Nat.lt_of_le_of_lt (Nat.sub_le _ _) t.isLt)).2 := by
  by_cases h1 : t.val % 8 = 7
  · rw [outsAt0_C m c t h0 h1]
    dsimp only
    exact sout0_C_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 (F := Ideal) m c (t.val - 1) (Nat.lt_of_le_of_lt (Nat.sub_le _ _) t.isLt)).2
  · rw [outsAt0_B m c t h0 h1]
    dsimp only
    exact sout0_B_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 (F := Ideal) m c (t.val - 1) (Nat.lt_of_le_of_lt (Nat.sub_le _ _) t.isLt)).2

/-- In the last column tile the output block's buffer is left holding what the accumulator holds. -/
theorem out_last (t : Fin cfg0.N) (h0 : ¬t.val % 8 = 0) (h1 : t.val % 8 = 7) :
    (outsAt0 (F := Ideal) m c t.val t.isLt).1 = (outsAt0 (F := Ideal) m c t.val t.isLt).2 := by
  rw [outsAt0_C m c t h0 h1]
  dsimp only
  exact (out0_C_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 (F := Ideal) m c (t.val - 1) (Nat.lt_of_le_of_lt (Nat.sub_le _ _) t.isLt)).2).trans
    (sout0_C_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 (F := Ideal) m c (t.val - 1) (Nat.lt_of_le_of_lt (Nat.sub_le _ _) t.isLt)).2).symm

/-! ## What the accumulator holds after each point -/

/-- After position `n` the accumulator holds, at row `p` of the tile, the sum of that row of the hinge matrix over the
    column tiles up to the point's own. -/
theorem acc_inv : ∀ (n : ℕ) (hn : n < cfg0.N) (p : Fin 1024),
    (outsAt0 (F := Ideal) m c n hn).2 (ix2 p (0 : Fin 1))
      = ∑ j ∈ Finset.range (n % 8 + 1), tileN m c (rowOf ⟨n, hn⟩ p) j := by
  intro n
  induction n using Nat.strong_induction_on with
  | _ n ih =>
    intro hn p
    have hN : cfg0.N = 64 := N_0
    by_cases h0 : n % 8 = 0
    · have h1 : ¬n % 8 = 7 := by omega
      refine (congrFun (acc_first m c ⟨n, hn⟩ h0 h1) (ix2 p (0 : Fin 1))).trans ?_
      refine (step_point m c ⟨n, hn⟩ p _).trans ?_
      show k0_pay2 (F := Ideal) (ix2 p (0 : Fin 1)) + tileN m c (rowOf ⟨n, hn⟩ p) (n % 8) = _
      rw [pay2_apply, zero_add, h0, Finset.sum_range_one]
    · have hprev : n - 1 < cfg0.N := by omega
      have ihp := ih (n - 1) (by omega) hprev p
      refine (congrFun (acc_later m c ⟨n, hn⟩ h0) (ix2 p (0 : Fin 1))).trans ?_
      refine (step_point m c ⟨n, hn⟩ p _).trans ?_
      show (outsAt0 (F := Ideal) m c (n - 1) hprev).2 (ix2 p (0 : Fin 1)) + tileN m c (rowOf ⟨n, hn⟩ p) (n % 8) = _
      have e1 : (n - 1) % 8 + 1 = n % 8 := by omega
      have er : rowOf ⟨n - 1, hprev⟩ p = rowOf ⟨n, hn⟩ p := Fin.ext (by
        show (n - 1) / 8 * 1024 + p.val = n / 8 * 1024 + p.val
        have : (n - 1) / 8 = n / 8 := by omega
        rw [this])
      rw [ihp, e1, er]
      exact (Finset.sum_range_succ _ _).symm

/-- After a point in the last column tile the output block's buffer holds, at row `p`, the whole row sum: the sum of the
    row's eight tile sums. -/
theorem acc_last (t : Fin cfg0.N) (h7 : t.val % 8 = 7) (p : Fin 1024) :
    (outsAt0 (F := Ideal) m c t.val t.isLt).1 (ix2 p (0 : Fin 1)) = ∑ j : Fin 8, PairLoss.tileSum (Hk m c) (rowOf t p) j := by
  have h0 : ¬t.val % 8 = 0 := by omega
  refine (congrFun (out_last m c t h0 h7) (ix2 p (0 : Fin 1))).trans ?_
  refine (acc_inv m c t.val t.isLt p).trans ?_
  rw [h7, Finset.sum_range]
  refine Finset.sum_congr rfl fun j _ => ?_
  unfold tileN
  rw [dif_pos j.isLt]

end Cert.KernelIdeal.Fr

end
-- ==== Proof.KI.HostIn.lean ====
/-
  The arrays the kernel region reads, identified with the reference's own intermediate values. Before the
  region the host normalises the rows of the first matrix (each row divided by the larger of its Euclidean
  norm and a floor), forms each normalised row's squared norm and entry sum, and the distance from each
  normalised row to the first normalised row of the second matrix. The reference computes the same
  quantities by the same operations in the same order, so each array is the reference's term: the two
  row statistics and the distance as columns of height 8192, the normalised rows once more after a
  narrowing that is the identity on extended reals. For the distance the kernel's host line takes the square
  root of the column while the reference makes a column of the square roots: entry by entry these agree.
-/
import proofs.«165779_j71476845740753_1_alg».proof.Proof.KI.Setup
import proofs.«165779_j71476845740753_1_alg».proof.Proof.Gen.ReferenceIdeal.Read
import Idealize.ShloMosaic.Lib.StableHlo.Run
import Idealize.ShloMosaic.Lib.ValueIdx
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.ShloMosaic.StableHlo
open Idealize.SL.Sem
open ValueIdx

variable (m : (ℓ : Loc nD τ sig) → Buf (Elt Ideal) ℓ) (c : Dev nD)

/-! ## The arrays as whole functions of the two matrices -/

/-- The normalised rows, as the region finds them, are the reference's normalised rows. -/
theorem V_v7_eq : (V (F := Ideal) m c main_v7 : S8192x512.Idx → EReal)
    = Cert.ReferenceIdeal.Read.val_main_v7 (F := Ideal) (m ((c.tc : Thread nD τ).loc main_arg0)) := by
  dsimp only [V, V0]
  simp only [hostOps0, List.flatten_cons, List.flatten_nil, List.append_nil]
  after_results_simp
  rfl

/-- The narrowed copy of the normalised rows is the narrowing of the reference's normalised rows. -/
theorem V_v32_eq : (V (F := Ideal) m c main_v32 : S8192x512.Idx → EReal)
    = (truncf .bf16 (Cert.ReferenceIdeal.Read.val_main_v7 (F := Ideal) (m ((c.tc : Thread nD τ).loc main_arg0)) : FVec Ideal S8192x512 .f32) bitsLt_bf16_f32 : FVec Ideal S8192x512 .bf16) := by
  dsimp only [V, V0]
  simp only [hostOps0, List.flatten_cons, List.flatten_nil, List.append_nil]
  after_results_simp
  rfl

/-- The column of squared norms is the reference's vector of squared norms, one entry per row. -/
theorem V_v20_eq : (V (F := Ideal) m c main_v20 : S8192x1.Idx → EReal)
    = broadcastInDim S8192x1 ![0] bcast_S8192_S8192x1_0 (Cert.ReferenceIdeal.Read.val_main_v19 (F := Ideal) (m ((c.tc : Thread nD τ).loc main_arg0))) := by
  dsimp only [V, V0]
  simp only [hostOps0, List.flatten_cons, List.flatten_nil, List.append_nil]
  after_results_simp
  rfl

/-- The column of entry sums is the reference's vector of entry sums, one entry per row. -/
theorem V_v22_eq : (V (F := Ideal) m c main_v22 : S8192x1.Idx → EReal)
    = broadcastInDim S8192x1 ![0] bcast_S8192_S8192x1_0 (Cert.ReferenceIdeal.Read.val_main_v20 (F := Ideal) (m ((c.tc : Thread nD τ).loc main_arg0))) := by
  dsimp only [V, V0]
  simp only [hostOps0, List.flatten_cons, List.flatten_nil, List.append_nil]
  after_results_simp
  rfl

/-- The column of distances is the square root, entry by entry, of the column made from the reference's vector of
    squared distances. -/
theorem V_v31_eq : (V (F := Ideal) m c main_v31 : S8192x1.Idx → EReal)
    = (Host.sqrt (broadcastInDim S8192x1 ![0] bcast_S8192_S8192x1_0 (Cert.ReferenceIdeal.Read.val_main_v50 (F := Ideal) (m ((c.tc : Thread nD τ).loc main_arg0)) (m ((c.tc : Thread nD τ).loc main_arg1))) : FVec Ideal S8192x1 .f32) : FVec Ideal S8192x1 .f32) := by
  dsimp only [V, V0]
  simp only [hostOps0, List.flatten_cons, List.flatten_nil, List.append_nil]
  after_results_simp
  rfl

/-! ## The arrays read at an index -/

/-- Entry `(r, k)` of the narrowed normalised rows is entry `(r, k)` of the reference's normalised rows: narrowing
    is the identity on extended reals. -/
theorem V_v32_apply (r : Fin 8192) (k : Fin 512) :
    V (F := Ideal) m c main_v32 (ix2 r k) = Cert.ReferenceIdeal.Read.val_main_v7 (F := Ideal) (m ((c.tc : Thread nD τ).loc main_arg0)) (ix2 r k) :=
  (congrFun (V_v32_eq m c) (ix2 r k)).trans (truncf_apply _ _ _)

/-- Row `r` of the column of squared norms is the reference's squared norm of row `r`. -/
theorem V_v20_apply (r : Fin 8192) :
    V (F := Ideal) m c main_v20 (ix2 r 0) = Cert.ReferenceIdeal.Read.val_main_v19 (F := Ideal) (m ((c.tc : Thread nD τ).loc main_arg0)) (ix1 r) :=
  (congrFun (V_v20_eq m c) (ix2 r 0)).trans
    (broadcastInDim_apply _ bcast_S8192_S8192x1_0 _ (ix2 r 0) (ix1 r) (fun a => match a with
      | ⟨0, _⟩ => by show r.val = if (8192 : Nat) = 1 then 0 else r.val; rw [if_neg (by decide)]))

/-- Row `r` of the column of entry sums is the reference's entry sum of row `r`. -/
theorem V_v22_apply (r : Fin 8192) :
    V (F := Ideal) m c main_v22 (ix2 r 0) = Cert.ReferenceIdeal.Read.val_main_v20 (F := Ideal) (m ((c.tc : Thread nD τ).loc main_arg0)) (ix1 r) :=
  (congrFun (V_v22_eq m c) (ix2 r 0)).trans
    (broadcastInDim_apply _ bcast_S8192_S8192x1_0 _ (ix2 r 0) (ix1 r) (fun a => match a with
      | ⟨0, _⟩ => by show r.val = if (8192 : Nat) = 1 then 0 else r.val; rw [if_neg (by decide)]))

/-- Row `r` of the column of distances is the reference's distance for row `r`: the square root of the squared
    distance, whether the root is taken before or after the vector is laid out as a column. -/
theorem V_v31_apply (r : Fin 8192) :
    V (F := Ideal) m c main_v31 (ix2 r 0) = Cert.ReferenceIdeal.Read.val_main_v51 (F := Ideal) (m ((c.tc : Thread nD τ).loc main_arg0)) (m ((c.tc : Thread nD τ).loc main_arg1)) (ix1 r) :=
  (congrFun (V_v31_eq m c) (ix2 r 0)).trans
    ((congrArg (FloatOps.hostUnary (F := Ideal) (φ := .f32) .sqrt)
        (broadcastInDim_apply _ bcast_S8192_S8192x1_0 (Cert.ReferenceIdeal.Read.val_main_v50 (F := Ideal) (m ((c.tc : Thread nD τ).loc main_arg0)) (m ((c.tc : Thread nD τ).loc main_arg1))) (ix2 r 0) (ix1 r) (fun a => match a with
      | ⟨0, _⟩ => by show r.val = if (8192 : Nat) = 1 then 0 else r.val; rw [if_neg (by decide)]))).trans
      (Cert.ReferenceIdeal.Read.val_main_v51_apply (F := Ideal) (m ((c.tc : Thread nD τ).loc main_arg0)) (m ((c.tc : Thread nD τ).loc main_arg1)) (ix1 r)).symm)

end Cert.KernelIdeal.Fr

end
-- ==== Proof.RefSide.lean ====
/-
  The reference program read back as the hinge matrix and its loss.

  The reference normalises the rows of its first argument, takes each normalised row's squared norm, entry sum and
  distance to the first normalised row of the second argument, and from these builds, entry by entry, the hinge matrix
  of `PairLoss.hinge`; its result is `PairLoss.loss` of the sum of all entries of that matrix. Here the four
  statistics are named as the stages of the reference's run that compute them, and the two facts are read off the
  remaining stages: every entry of the stage before the final sum is the hinge entry (`hinge_entry`), and the result
  is the loss of the sum of that stage over every index (`result_eq`).
-/
import proofs.«165779_j71476845740753_1_alg».proof.Proof.Gen.ReferenceIdeal.Read
import proofs.«165779_j71476845740753_1_alg».proof.Proof.Spec
import Idealize.ShloMosaic.Lib.ValueIdx
import Idealize.ShloMosaic.PureOps.Ideal.Laws

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The contents of the reference's first argument (8192 rows of 512 entries). -/
abbrev Arg0 : Type := (⟨S8192x512, .f32⟩ : BufTy).Contents (Elt Ideal)
/-- The contents of the reference's second argument (1024 rows of 512 entries). -/
abbrev Arg1 : Type := (⟨S1024x512, .f32⟩ : BufTy).Contents (Elt Ideal)

/-- The normalised rows of the first argument. -/
def pRow (a0 : Arg0) : Fin 8192 → Fin 512 → EReal := fun r k => Read.val_main_v7 (F := Ideal) a0 (ix2 r k)

/-- The squared norms of the normalised rows. -/
def xx (a0 : Arg0) : Fin 8192 → EReal := fun r => Read.val_main_v19 (F := Ideal) a0 (ix1 r)

/-- The entry sums of the normalised rows. -/
def sx (a0 : Arg0) : Fin 8192 → EReal := fun r => Read.val_main_v20 (F := Ideal) a0 (ix1 r)

/-- Each normalised row's distance to the first normalised row of the second argument. -/
def dn (a0 : Arg0) (a1 : Arg1) : Fin 8192 → EReal := fun r => Read.val_main_v51 (F := Ideal) a0 a1 (ix1 r)

/-- The hinge matrix of the reference's statistics. -/
def H (a0 : Arg0) (a1 : Arg1) : Fin 8192 → Fin 8192 → EReal :=
  PairLoss.hinge (pRow a0) (xx a0) (sx a0) (dn a0 a1)

/-! ## The indices the broadcasts, the transpose and the product read at -/

/-- A row statistic broadcast along the columns is read at the row. -/
theorem idx_row_sq (r c : Fin 8192) : idx_main_v23 (idx_main_v25 (ix2 r c)) = ix1 r :=
  funext fun a => Fin.ext (by match a with | ⟨0, _⟩ => rfl)
/-- A row statistic broadcast along the rows is read at the column. -/
theorem idx_col_sq (r c : Fin 8192) : idx_main_v24 (idx_main_v26 (ix2 r c)) = ix1 c :=
  funext fun a => Fin.ext (by match a with | ⟨0, _⟩ => rfl)
theorem idx_row_sum (r c : Fin 8192) : idx_main_v31 (idx_main_v33 (ix2 r c)) = ix1 r :=
  funext fun a => Fin.ext (by match a with | ⟨0, _⟩ => rfl)
theorem idx_col_sum (r c : Fin 8192) : idx_main_v32 (idx_main_v34 (ix2 r c)) = ix1 c :=
  funext fun a => Fin.ext (by match a with | ⟨0, _⟩ => rfl)
theorem idx_row_dist (r c : Fin 8192) : idx_main_v54 (idx_main_v55 (ix2 r c)) = ix1 r :=
  funext fun a => Fin.ext (by match a with | ⟨0, _⟩ => rfl)
/-- The product's left factor is entry `k` of row `r`. -/
theorem idx_gram_left (r c : Fin 8192) (k : Fin 512) : lidx_main_v22 (ix2 r c) k = ix2 r k :=
  funext fun a => Fin.ext (by match a with | ⟨0, _⟩ => rfl | ⟨1, _⟩ => rfl)
/-- The product's right factor, through the transpose, is entry `k` of row `c`. -/
theorem idx_gram_right (r c : Fin 8192) (k : Fin 512) : idx_main_v21 (ridx_main_v22 (ix2 r c) k) = ix2 c k :=
  funext fun a => Fin.ext (by match a with | ⟨0, _⟩ => rfl | ⟨1, _⟩ => rfl)

/-- The matrix product of the normalised rows with their transpose is the inner product of two rows. -/
theorem gram_entry (a0 : Arg0) (r c : Fin 8192) :
    Read.val_main_v22 (F := Ideal) a0 (ix2 r c) = ∑ k : Fin 512, pRow a0 r k * pRow a0 c k := by
  rw [val_main_v22_apply]
  refine Finset.sum_congr rfl fun k _ => ?_
  rw [val_main_v21_apply, idx_gram_left, idx_gram_right]
  rfl

/-- Every entry of the stage before the final sum is the hinge entry of the reference's statistics. -/
theorem hinge_entry (a0 : Arg0) (a1 : Arg1) (r c : Fin 8192) :
    Read.val_main_v58 (F := Ideal) a0 a1 (ix2 r c) = H a0 a1 r c := by
  rw [val_main_v58_apply, val_main_v57_apply, val_main_cst_12_apply, val_main_v56_apply, val_main_v53_apply,
    val_main_v52_apply, val_main_cst_11_apply, val_main_v55_apply, val_main_v54_apply, idx_row_dist,
    val_main_v43_apply, val_main_v42_apply, val_main_v41_apply, val_main_cst_8_apply, val_main_v40_apply,
    val_main_v39_apply, val_main_cst_7_apply, val_main_v38_apply, val_main_v37_apply, val_main_v36_apply,
    val_main_cst_6_apply, val_main_v35_apply, val_main_v33_apply, val_main_v31_apply, idx_row_sum,
    val_main_v34_apply, val_main_v32_apply, idx_col_sum, val_main_v30_apply, val_main_v29_apply,
    val_main_v28_apply, val_main_cst_5_apply, gram_entry, val_main_v27_apply, val_main_v25_apply,
    val_main_v23_apply, idx_row_sq, val_main_v26_apply, val_main_v24_apply, idx_col_sq]
  simp only [Ideal.maximumf_def, Ideal.subf_def, Ideal.addf_def, Ideal.mulf_def, Ideal.hostUnary_sqrt_def,
    Ideal.ofBits_def]
  rfl

/-- The reference's result is the loss of the sum of that stage over every index. -/
theorem result_eq (a0 : Arg0) (a1 : Arg1) :
    Read.val_main_v61 (F := Ideal) a0 a1
      = fun _ => PairLoss.loss (∑ i : S8192x8192.Idx, Read.val_main_v58 (F := Ideal) a0 a1 i) := by
  funext i
  rw [val_main_v61_apply, val_main_cst_15_apply, val_main_v60_apply, val_main_cst_14_apply, val_main_v59_apply,
    val_main_cst_13_apply]
  simp only [Ideal.maximumf_def, Ideal.hostDivf_def, Ideal.ofBits_def, PairLoss.loss]
  rw [Ideal.ofBits_zero_f32, zero_add]

end Cert.RefValue

end
-- ==== Proof.SumLaw.lean ====
/-
  The regrouping law behind the tiled sum, and three small re-indexing facts, all over the extended reals.

  A column c of 0 … 8191 is, in exactly one way, column c' of tile j with c = 1024·j + c' (j below 8, c' below 1024):
  j is the quotient and c' the remainder of c by 1024. So the pairs (j, c') are in bijection with the columns, and a
  finite sum in a commutative monoid may be taken over either index set. Summing a row tile by tile is therefore the
  same as summing the row at once, and the same holds after summing over the rows.

  The other three facts: a left-nested sum of eight terms started from zero is the sum over the eight positions; a sum
  over the indices of an 8192 × 1 array that reads only the first coordinate is the sum over the 8192 rows (the second
  coordinate takes one value); and a sum over the indices of an 8192 × 8192 array is the double sum over its two
  coordinates.
-/
import proofs.«165779_j71476845740753_1_alg».proof.Proof.Spec
import Mathlib.Algebra.BigOperators.Fin
import Mathlib.Data.Fintype.BigOperators

noncomputable section

open scoped BigOperators

namespace PairLoss

open Idealize.ShloMosaic

/-- Tile and offset of a column: (j, c') ↦ 1024·j + c' is a bijection from the pairs onto the columns, with inverse
    c ↦ (c / 1024, c % 1024). -/
def colEquiv : Fin 8 × Fin 1024 ≃ Fin 8192 where
  toFun p := col p.1 p.2
  invFun c := (⟨c.val / 1024, by omega⟩, ⟨c.val % 1024, by omega⟩)
  left_inv p := by
    obtain ⟨j, c'⟩ := p
    refine Prod.ext (Fin.ext ?_) (Fin.ext ?_)
    · show (j.val * 1024 + c'.val) / 1024 = j.val
      omega
    · show (j.val * 1024 + c'.val) % 1024 = c'.val
      omega
  right_inv c := by
    refine Fin.ext ?_
    show c.val / 1024 * 1024 + c.val % 1024 = c.val
    omega

/-- The bijection is the column map. -/
theorem colEquiv_apply (p : Fin 8 × Fin 1024) : colEquiv p = col p.1 p.2 := rfl

/-- One row: its eight tile sums add up to the sum of the whole row. -/
theorem sum_tileSum (f : Fin 8192 → Fin 8192 → EReal) (r : Fin 8192) :
    ∑ j : Fin 8, tileSum f r j = ∑ c : Fin 8192, f r c := by
  unfold tileSum
  -- the double sum over (tile, offset) is a single sum over the pairs …
  rw [← Fintype.sum_prod_type' (fun (j : Fin 8) (c' : Fin 1024) => f r (col j c'))]
  -- … and the pairs are the columns.
  exact Equiv.sum_comp colEquiv (fun c : Fin 8192 => f r c)

/-- Adding a row's entries tile by tile gives the same total as adding all entries at once. -/
theorem tiledTotal_eq_total (f : Fin 8192 → Fin 8192 → EReal) : tiledTotal f = total f := by
  unfold tiledTotal total
  exact Finset.sum_congr rfl fun r _ => sum_tileSum f r

/-- A left-nested sum of eight terms started from zero is the sum over the eight positions. -/
theorem fold8 (z : EReal) (hz : z = 0) (s : Fin 8 → EReal) :
    ((((((((z + s 0) + s 1) + s 2) + s 3) + s 4) + s 5) + s 6) + s 7) = ∑ j : Fin 8, s j := by
  subst hz
  rw [Fin.sum_univ_eight, zero_add]

/-- A sum over the indices of an 8192 × 1 array that reads only the first coordinate is the sum over the rows: the
    second coordinate takes a single value. -/
theorem sum_idx_col (h : Fin 8192 → EReal) :
    ∑ i : (⟨2, ![8192, 1]⟩ : Shape).Idx, h ⟨(i 0).val, ValueIdx.idx2_lt0 i⟩ = ∑ r : Fin 8192, h r := by
  rw [ValueIdx.sum_idx2]
  refine Finset.sum_congr rfl fun a _ => ?_
  rw [Fin.sum_univ_one]

/-- A sum over the indices of an 8192 × 8192 array is the double sum over its two coordinates. -/
theorem sum_idx_sq (f : Fin 8192 → Fin 8192 → EReal) :
    ∑ i : (⟨2, ![8192, 8192]⟩ : Shape).Idx,
        f ⟨(i 0).val, ValueIdx.idx2_lt0 i⟩ ⟨(i 1).val, ValueIdx.idx2_lt1 i⟩ = total f := by
  rw [ValueIdx.sum_idx2]
  rfl

end PairLoss

end
-- ==== Proof.Bridge.lean ====
/-
  The reference's result as the loss of the sum of all hinge entries: its last three stages clamp the quotient of
  the sum of the 8192 x 8192 hinge matrix, each entry of which is the spec's entry of the rows' statistics.
-/
import proofs.«165779_j71476845740753_1_alg».proof.Proof.RefSide
import proofs.«165779_j71476845740753_1_alg».proof.Proof.SumLaw

noncomputable section

namespace Cert.RefValue

open Cert.ReferenceIdeal Cert.ReferenceIdeal.Gen Idealize.ShloMosaic Idealize.ShloMosaic.ValueIdx

/-- The reference's result is the loss of the total of the hinge matrix of its normalised rows. -/
theorem ref_value (a0 : Arg0) (a1 : Arg1) :
    Read.val_main_v61 (F := Ideal) a0 a1 = fun _ => PairLoss.loss (PairLoss.total (H a0 a1)) := by
  rw [result_eq]
  funext _
  refine congrArg PairLoss.loss ?_
  rw [← PairLoss.sum_idx_sq (H a0 a1)]
  refine Finset.sum_congr rfl fun i _ => ?_
  exact (congrArg (Read.val_main_v58 (F := Ideal) a0 a1) (eq_ix2 i)).trans
    (hinge_entry a0 a1 ⟨(i 0).val, idx2_lt0 i⟩ ⟨(i 1).val, idx2_lt1 i⟩)

end Cert.RefValue

end
-- ==== Proof.KI.Value.lean ====
/-
  The idealized kernel program's result. The output array ends holding, in row R, the sum over the eight column
  tiles of the tile sums of row R of the hinge matrix of the normalised rows; the closing host lines add the rows
  up, divide and clamp: the loss of the tiled total. The statistics the kernel's windows read are the ones the
  reference computes, and the tiled total is the total.
-/
import proofs.«165779_j71476845740753_1_alg».proof.Proof.KI.Run
import proofs.«165779_j71476845740753_1_alg».proof.Proof.KI.Tail
import proofs.«165779_j71476845740753_1_alg».proof.Proof.KI.OutArr
import proofs.«165779_j71476845740753_1_alg».proof.Proof.KI.Acc
import proofs.«165779_j71476845740753_1_alg».proof.Proof.KI.HostIn
import proofs.«165779_j71476845740753_1_alg».proof.Proof.Bridge

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- Row R of the output array: the row's tile sums added up. -/
def rowSums (c : Dev nD) : Vec Ideal S8192x1 .f32 :=
  fun i => ∑ j : Fin 8, PairLoss.tileSum (Hk m c) ⟨(i 0).val, idx2_lt0 i⟩ j

/-- The output array after the region holds the row sums. -/
theorem outArr_eq (c : Dev nD) : outArr (F := Ideal) m c = rowSums m c :=
  arrAt7_eq m c (rowSums m c) fun t h7 p => (acc_last m c t h7 p).trans rfl

/-- The hinge matrix of the statistics the kernel's windows read is the one of the reference's normalised rows. -/
theorem Hk_eq (c : Dev nD) :
    Hk m c = Cert.RefValue.H (m ((c.tc : Thread nD τ).loc main_arg0)) (m ((c.tc : Thread nD τ).loc main_arg1)) := by
  funext r cc
  unfold Hk Cert.RefValue.H PairLoss.hinge Cert.RefValue.pRow Cert.RefValue.xx Cert.RefValue.sx Cert.RefValue.dn
  rw [V_v20_apply m c r, V_v20_apply m c cc, V_v22_apply m c r, V_v22_apply m c cc, V_v31_apply m c r]
  refine congrArg (fun g => PairLoss.entry _ _ g _ _ _) (Finset.sum_congr rfl fun k _ => ?_)
  rw [V_v32_apply m c r k, V_v32_apply m c cc k]

/-- What the closing host lines leave in the result buffer: the loss of the total of the hinge matrix. -/
theorem kernel_value (c : Dev nD) :
    StableHlo.after (List.flatten [hostOps1 (F := Ideal)]) (V1 m c) (Proc.devRef .tc main_v36)
      = fun _ => PairLoss.loss (PairLoss.total
          (Cert.RefValue.H (m ((c.tc : Thread nD τ).loc main_arg0)) (m ((c.tc : Thread nD τ).loc main_arg1)))) := by
  rw [tail_value, V1_out, outArr_eq]
  funext _
  refine congrArg PairLoss.loss ?_
  unfold rowSums
  refine (PairLoss.sum_idx_col (fun R => ∑ j : Fin 8, PairLoss.tileSum (Hk m c) R j)).trans ?_
  exact (PairLoss.tiledTotal_eq_total (Hk m c)).trans (by rw [Hk_eq])

/-- The run with its result named: every weakly fair execution terminates with the result buffer at the loss of the
    total of the hinge matrix of the normalised rows, and the argument arrays unchanged. -/
theorem run_value : θ_run defs (onTc (τ := τ) (main (F := Ideal))) ⟨m, fun _ => 0, ρ⟩ (fun r => ∀ c : Dev nD,
      r.2.mem ((c.tc : Thread nD τ).loc main_v36)
        = (fun _ => PairLoss.loss (PairLoss.total
            (Cert.RefValue.H (m ((c.tc : Thread nD τ).loc main_arg0)) (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v36 (Pipeline.mem_restRefs_of main_v36 (by decide) (by decide))).trans (kernel_value m c),
     ((h c).2 main_arg0 (Pipeline.mem_restRefs_of main_arg0 (by decide) (by decide))).trans (end_main_arg0 m c),
     ((h c).2 main_arg1 (Pipeline.mem_restRefs_of main_arg1 (by decide) (by decide))).trans (end_main_arg1 m c)⟩) (run_main m ρ)

end Cert.KernelIdeal.Fr

end
-- ==== Proof.lean ====
/-
  A nested pairwise-distance margin loss. Both programs normalise the rows of two matrices, form for every pair of
  rows of the first the distance through the Gram-matrix identity
      |x − y + eps|^2 = |x|^2 + |y|^2 − 2<x,y> + 2 eps (sum x − sum y) + eps^2 d,
  hinge it against each row's distance to one fixed row of the second matrix, and average. The kernel computes the
  8192 x 8192 hinge matrix one 1024 x 1024 tile at a time: a grid of 8 x 8 points, a row tile's partial row sums
  accumulated over its eight column tiles in a buffer the kernel keeps between points, reset at the first column
  tile and written out at the last; the host then adds the 8192 row sums. The reference adds all entries at once.

  On the extended reals the two are the same number. A change of float format is the identity, so the kernel's
  bf16 matrix product is the reference's inner products; the entries are the same function of the same row
  statistics, with the same constants; and a sum of extended reals may be regrouped freely, addition being
  commutative and associative — no finiteness of the inputs is used.

  The frames. The normalised rows, their squared norms and their entry sums are each handed to the kernel through
  TWO windows (as the row tile and as the column tile of the pair). Each of those arrays is therefore held by its
  two windows at one half of the full share, dealt at the region's entry and gathered at its exit; the accumulator's
  contents are followed from point to point. The same text proves the frame of the word-level program and of the
  idealized one.
-/
import proofs.«165779_j71476845740753_1_alg».proof.Defs
import proofs.«165779_j71476845740753_1_alg».proof.Proof.Gen.Kernel
import proofs.«165779_j71476845740753_1_alg».proof.Proof.Gen.KernelIdeal
import proofs.«165779_j71476845740753_1_alg».proof.Proof.Gen.ReferenceIdeal
import proofs.«165779_j71476845740753_1_alg».proof.Proof.Gen.Pre_finite_inputs
import proofs.«165779_j71476845740753_1_alg».proof.Proof.Gen.ReferenceIdeal.Run
import proofs.«165779_j71476845740753_1_alg».proof.Proof.K.Run
import proofs.«165779_j71476845740753_1_alg».proof.Proof.KI.Value
import Idealize.ShloMosaic.Adequacy
import Idealize.ShloMosaic.Init

noncomputable section

namespace Cert.Proof

open Idealize.ShloMosaic Idealize.ShloMosaic.TcCoe Idealize.SL.Sem

/-- The word-level program runs to the end and leaves its arguments unchanged. -/
theorem frame_p : Cert.frame_Kernel := fun m ρ _ => Cert.Kernel.Fr.frame m ρ

/-- So does the idealized program. -/
theorem frame_pi : Cert.frame_KernelIdeal := fun m ρ _ => Cert.KernelIdeal.Fr.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end at the loss of the total of the hinge matrix of the
    normalised rows. -/
theorem algebraic : Cert.algebraic_KernelIdeal_ReferenceIdeal := by
  intro m ρ m' ρ' _ hagree
  refine ⟨fun c => (fun _ => PairLoss.loss (PairLoss.total (Cert.RefValue.H
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))))),
    Cert.KernelIdeal.Fr.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, (hagree c).1, (hagree c).2]
  exact Cert.RefValue.ref_value _ _

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
